-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S3200000 : Shape := ⟨1, ![3200000]⟩
abbrev S256x4 : Shape := ⟨2, ![256, 4]⟩
abbrev S4 : Shape := ⟨1, ![4]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_v28 : IVec S_ 1) (main_v33 : IVec S3200000 1) : IVec S_ 1 :=
  let main_c_12 : IVec S_ 1 := constantI S_ 1 1#1
  let main_v34 : IVec S_ 1 := (fun x v => Host.reduce IntOp.andi x v reducesTo_S3200000_S_d0 h_S_) main_v33 main_c_12
  let main_v35 : IVec S_ 1 := andi main_v28 main_v34
  main_v35

def fn_part1 {F : FTy → Type} [FloatOps F] (main_arg3 : IVec S3200000 32) (main_arg6 : FVec F S4 .f32) (main_arg7 : FVec F S256x4 .f32) (main_v13 : IVec S_ 1) (main_v16 : IVec S256x4 1) : IVec S_ 1 :=
  let main_c_5 : IVec S_ 1 := constantI S_ 1 1#1
  let main_v17 : IVec S_ 1 := (fun x v => Host.reduce IntOp.andi x v reducesTo_S256x4_S_d0_1 h_S_) main_v16 main_c_5
  let main_v18 : IVec S_ 1 := andi main_v13 main_v17
  let main_v19 : FVec F S4 .f32 := Host.absf main_arg6
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S256x4 .f32 := Host.absf main_arg7
  let main_cst_8 : FVec F S_ .f32 := constant S_ .f32 0x7F800000#32
  let main_v25 : FVec F S256x4 .f32 := broadcastInDim S256x4 ![] bcast_S_S256x4 main_cst_8
  let main_v26 : IVec S256x4 1 := cmpf .olt main_v24 main_v25
  let main_c_9 : IVec S_ 1 := constantI S_ 1 1#1
  let main_v27 : IVec S_ 1 := (fun x v => Host.reduce IntOp.andi x v reducesTo_S256x4_S_d0_1 h_S_) main_v26 main_c_9
  let main_v28 : IVec S_ 1 := andi main_v23 main_v27
  let main_c_10 : IVec S_ 32 := constantI S_ 32 4294867296#32
  let main_v29 : IVec S3200000 32 := broadcastInDim S3200000 ![] bcast_S_S3200000 main_c_10
  let main_v30 : IVec S3200000 1 := cmpi .sge main_arg3 main_v29
  let main_c_11 : IVec S_ 32 := constantI S_ 32 100000#32
  let main_v31 : IVec S3200000 32 := broadcastInDim S3200000 ![] bcast_S_S3200000 main_c_11
  let main_v32 : IVec S3200000 1 := cmpi .slt main_arg3 main_v31
  let main_v33 : IVec S3200000 1 := andi main_v30 main_v32
  fn_part2 (F := F) main_v28 main_v33

def fn {F : FTy → Type} [FloatOps F] (main_arg0 : FVec F S100000x256 .f32) (main_arg1 : FVec F S3200000 .f32) (main_arg2 : FVec F S3200000 .f32) (main_arg3 : IVec S3200000 32) (main_arg4 : IVec S3200000 32) (main_arg5 : FVec F S256x4 .f32) (main_arg6 : FVec F S4 .f32) (main_arg7 : FVec F S256x4 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3200000 .f32 := Host.absf main_arg1
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S3200000 .f32 := Host.absf main_arg2
  let main_cst_2 : FVec F S_ .f32 := constant S_ .f32 0x7F800000#32
  let main_v10 : FVec F S3200000 .f32 := broadcastInDim S3200000 ![] bcast_S_S3200000 main_cst_2
  let main_v11 : IVec S3200000 1 := cmpf .olt main_v9 main_v10
  let main_c_3 : IVec S_ 1 := constantI S_ 1 1#1
  let main_v12 : IVec S_ 1 := (fun x v => Host.reduce IntOp.andi x v reducesTo_S3200000_S_d0 h_S_) main_v11 main_c_3
  let main_v13 : IVec S_ 1 := andi main_v8 main_v12
  let main_v14 : FVec F S256x4 .f32 := Host.absf main_arg5
  let main_cst_4 : FVec F S_ .f32 := constant S_ .f32 0x7F800000#32
  let main_v15 : FVec F S256x4 .f32 := broadcastInDim S256x4 ![] bcast_S_S256x4 main_cst_4
  let main_v16 : IVec S256x4 1 := cmpf .olt main_v14 main_v15
  fn_part1 (F := F) main_arg3 main_arg6 main_arg7 main_v13 main_v16
-- ==== Kernel.lean ====
abbrev S100000x256 : Shape := ⟨2, ![100000, 256]⟩
abbrev S3200000 : Shape := ⟨1, ![3200000]⟩
abbrev S256x4 : Shape := ⟨2, ![256, 4]⟩
abbrev S4 : Shape := ⟨1, ![4]⟩
abbrev S256x8 : Shape := ⟨2, ![256, 8]⟩
abbrev S_ : Shape := ⟨0, ![]⟩
abbrev S8 : Shape := ⟨1, ![8]⟩
abbrev S1x8 : Shape := ⟨2, ![1, 8]⟩
abbrev S100000x8 : Shape := ⟨2, ![100000, 8]⟩
abbrev S5000x256 : Shape := ⟨2, ![5000, 256]⟩
abbrev S5000x8 : Shape := ⟨2, ![5000, 8]⟩
abbrev S100000x4 : Shape := ⟨2, ![100000, 4]⟩
abbrev S4x100000 : Shape := ⟨2, ![4, 100000]⟩
abbrev S3200000x1 : Shape := ⟨2, ![3200000, 1]⟩
abbrev S1 : Shape := ⟨1, ![1]⟩
abbrev S1x1 : Shape := ⟨2, ![1, 1]⟩
abbrev S4x3200000 : Shape := ⟨2, ![4, 3200000]⟩
abbrev S4x25600 : Shape := ⟨2, ![4, 25600]⟩
abbrev S25600 : Shape := ⟨1, ![25600]⟩
abbrev S1x25600 : Shape := ⟨2, ![1, 25600]⟩
abbrev S100000 : Shape := ⟨1, ![100000]⟩

abbrev nBuf : Space → Nat
  | .hbm => 69
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S3200000, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S256x4, .f32⟩
  | .hbm, ⟨6, _⟩ => ⟨S4, .f32⟩
  | .hbm, ⟨7, _⟩ => ⟨S256x4, .f32⟩
  | .hbm, ⟨8, _⟩ => ⟨S256x8, .f32⟩
  | .hbm, ⟨9, _⟩ => ⟨S_, .f32⟩
  | .hbm, ⟨10, _⟩ => ⟨S4, .f32⟩
  | .hbm, ⟨11, _⟩ => ⟨S8, .f32⟩
  | .hbm, ⟨12, _⟩ => ⟨S1x8, .f32⟩
  | .hbm, ⟨13, _⟩ => ⟨S100000x8, .f32⟩
  | .hbm, ⟨14, _⟩ => ⟨S100000x4, .f32⟩
  | .hbm, ⟨15, _⟩ => ⟨S100000x4, .f32⟩
  | .hbm, ⟨16, _⟩ => ⟨S4x100000, .f32⟩
  | .hbm, ⟨17, _⟩ => ⟨S4x100000, .f32⟩
  | .hbm, ⟨18, _⟩ => ⟨S_, .i32⟩
  | .hbm, ⟨19, _⟩ => ⟨S3200000, .i32⟩
  | .hbm, ⟨20, _⟩ => ⟨S3200000, .i1⟩
  | .hbm, ⟨21, _⟩ => ⟨S_, .i32⟩
  | .hbm, ⟨22, _⟩ => ⟨S3200000, .i32⟩
  | .hbm, ⟨23, _⟩ => ⟨S3200000, .i32⟩
  | .hbm, ⟨24, _⟩ => ⟨S3200000, .i32⟩
  | .hbm, ⟨25, _⟩ => ⟨S3200000x1, .i32⟩
  | .hbm, ⟨26, _⟩ => ⟨S1, .i32⟩
  | .hbm, ⟨27, _⟩ => ⟨S_, .i32⟩
  | .hbm, ⟨28, _⟩ => ⟨S3200000x1, .i32⟩
  | .hbm, ⟨29, _⟩ => ⟨S3200000x1, .i1⟩
  | .hbm, ⟨30, _⟩ => ⟨S1x1, .i32⟩
  | .hbm, ⟨31, _⟩ => ⟨S3200000x1, .i32⟩
  | .hbm, ⟨32, _⟩ => ⟨S3200000x1, .i1⟩
  | .hbm, ⟨33, _⟩ => ⟨S3200000x1, .i1⟩
  | .hbm, ⟨34, _⟩ => ⟨S_, .i1⟩
  | .hbm, ⟨35, _⟩ => ⟨S3200000, .i1⟩
  | .hbm, ⟨36, _⟩ => ⟨S4x3200000, .f32⟩
  | .hbm, ⟨37, _⟩ => ⟨S4x3200000, .i1⟩
  | .hbm, ⟨38, _⟩ => ⟨S_, .f32⟩
  | .hbm, ⟨39, _⟩ => ⟨S4x3200000, .f32⟩
  | .hbm, ⟨40, _⟩ => ⟨S4x3200000, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S1, .i32⟩
  | .hbm, ⟨50, _⟩ => ⟨S_, .i32⟩
  | .hbm, ⟨51, _⟩ => ⟨S3200000x1, .i32⟩
  | .hbm, ⟨52, _⟩ => ⟨S3200000x1, .i1⟩
  | .hbm, ⟨53, _⟩ => ⟨S1x1, .i32⟩
  | .hbm, ⟨54, _⟩ => ⟨S3200000x1, .i32⟩
  | .hbm, ⟨55, _⟩ => ⟨S3200000x1, .i1⟩
  | .hbm, ⟨56, _⟩ => ⟨S3200000x1, .i1⟩
  | .hbm, ⟨57, _⟩ => ⟨S_, .i1⟩
  | .hbm, ⟨58, _⟩ => ⟨S3200000, .i1⟩
  | .hbm, ⟨59, _⟩ => ⟨S4x3200000, .f32⟩
  | .hbm, ⟨60, _⟩ => ⟨S4x3200000, .i1⟩
  | .hbm, ⟨61, _⟩ => ⟨S_, .f32⟩
  | .hbm, ⟨62, _⟩ => ⟨S4x3200000, .f32⟩
  | .hbm, ⟨63, _⟩ => ⟨S4x3200000, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x8, .f32⟩
  | .local _ .vmem, ⟨3, _⟩ => ⟨S1x8, .f32⟩
  | .local _ .vmem, ⟨4, _⟩ => ⟨S5000x8, .f32⟩
  | .local _ .vmem, ⟨5, _⟩ => ⟨S5000x8, .f32⟩
  | .local _ .vmem, ⟨6, _⟩ => ⟨S4x25600, .f32⟩
  | .local _ .vmem, ⟨7, _⟩ => ⟨S4x25600, .f32⟩
  | .local _ .vmem, ⟨8, _⟩ => ⟨S4x25600, .f32⟩
  | .local _ .vmem, ⟨9, _⟩ => ⟨S4x25600, .f32⟩
  | .local _ .vmem, ⟨10, _⟩ => ⟨S25600, .f32⟩
  | .local _ .vmem, ⟨11, _⟩ => ⟨S25600, .f32⟩
  | .local _ .vmem, ⟨12, _⟩ => ⟨S25600, .f32⟩
  | .local _ .vmem, ⟨13, _⟩ => ⟨S25600, .f32⟩
  | .local _ .vmem, ⟨14, _⟩ => ⟨S25600, .f32⟩
  | .local _ .vmem, ⟨15, _⟩ => ⟨S25600, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v9 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v10 : Ref sig .tc := ⟨.hbm, 63, rfl⟩
abbrev main_v11 : Ref sig .tc := ⟨.hbm, 64, rfl⟩
abbrev main_cst_0 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4x25600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x25600 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S25600 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S25600 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S25600 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  concatenates_S256x4_S256x4_S256x8_d1 : Shape.Concatenates [S256x4, S256x4] S256x8 1
  bcast_S_S4 : S_.BroadcastsInDim S4 (![] : Fin 0 → Fin S4.rank)
  concatenates_S4_S4_S8_d0 : Shape.Concatenates [S4, S4] S8 0
  shapeCasts_S8_S1x8 : S8.ShapeCasts S1x8
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x8_S256x8_0_0 : ∀ a, (![0, 0] : Fin 2 → Nat) a + S256x8.size a ≤ S256x8.size a
  h_S256x8 : 0 < S256x8.numel
  shapeCasts_S256x8_S256x8 : S256x8.ShapeCasts S256x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  slices_S100000x8_S100000x4_0_0 : S100000x8.Slices ![0, 0] S100000x4
  slices_S100000x8_S100000x4_0_4 : S100000x8.Slices ![0, 4] S100000x4
  transposes_S100000x4_S4x100000_1_0 : S100000x4.Transposes [1, 0] S4x100000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S4x3200000_1 : S3200000.BroadcastsInDim S4x3200000 (![1] : Fin 1 → Fin S4x3200000.rank)
  bcast_S_S4x3200000 : S_.BroadcastsInDim S4x3200000 (![] : Fin 0 → Fin S4x3200000.rank)
  inb_S4x25600_S4x25600_0_0 : ∀ a, (![0, 0] : Fin 2 → Nat) a + S4x25600.size a ≤ S4x25600.size a
  h_S4x25600 : 0 < S4x25600.numel
  shapeCasts_S4x25600_S4x25600 : S4x25600.ShapeCasts S4x25600
  inb_S25600_S25600_0 : ∀ a, (![0] : Fin 1 → Nat) a + S25600.size a ≤ S25600.size a
  h_S25600 : 0 < S25600.numel
  slices_S4x25600_o0_0_S1x25600 : S4x25600.Slices ![0, 0] S1x25600
  shapeCasts_S1x25600_S25600 : S1x25600.ShapeCasts S25600
  slices_S4x25600_o1_0_S1x25600 : S4x25600.Slices ![1, 0] S1x25600
  slices_S4x25600_o2_0_S1x25600 : S4x25600.Slices ![2, 0] S1x25600
  slices_S4x25600_o3_0_S1x25600 : S4x25600.Slices ![3, 0] S1x25600
  bcast_S_S100000 : S_.BroadcastsInDim S100000 (![] : Fin 0 → Fin S100000.rank)
  dot_S5000x256_S256x8_S5000x8_1_0_0_1_n_n_wf : DotDims.WF S5000x256 S256x8 S5000x8 [1] [0] [0] [1] [] []
  gather_S4x100000_S3200000x1_S4x3200000_0_1_n_n_1_1_41_wf : GatherDims.WF S4x100000 S3200000x1 S4x3200000 [0] [1] [] [1] [] 1 ![4, 1]
  scatter_S100000_S3200000x1_S3200000_n_0_0_1_wf : ScatterDims.WF S100000 S3200000x1 S3200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x8.size a ≤ S100000x8.size a
  hwx0_3 : ∀ i : grid0.Coords, EltTy.bits .f32 = 32 ∨ (Rect.block (s := S100000x8) S5000x8.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x25600.size a ≤ S4x3200000.size a
  hwx1_0 : ∀ i : grid1.Coords, EltTy.bits .f32 = 32 ∨ (Rect.block (s := S4x3200000) S4x25600.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x25600.size a ≤ S4x3200000.size a
  hwx1_1 : ∀ i : grid1.Coords, EltTy.bits .f32 = 32 ∨ (Rect.block (s := S4x3200000) S4x25600.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25600.size a ≤ S3200000.size a
  hwx1_2 : ∀ i : grid1.Coords, EltTy.bits .f32 = 32 ∨ (Rect.block (s := S3200000) S25600.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S25600.size a ≤ S3200000.size a
  hwx1_3 : ∀ i : grid1.Coords, EltTy.bits .f32 = 32 ∨ (Rect.block (s := S3200000) S25600.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S25600.size a ≤ S3200000.size a
  hwx1_4 : ∀ i : grid1.Coords, EltTy.bits .f32 = 32 ∨ (Rect.block (s := S3200000) S25600.size (cc1_transform_4 i) (hinb1_4 i)).WholeWords (EltTy.packing .f32)

variable [Facts₀]

def dot_S5000x256_S256x8_S5000x8_1_0_0_1_n_n : DotDims S5000x256 S256x8 S5000x8 where
  lhsContracting := [1]
  rhsContracting := [0]
  lhsNonContracting := [0]
  rhsNonContracting := [1]
  lhsBatch := []
  rhsBatch := []
  wf := dot_S5000x256_S256x8_S5000x8_1_0_0_1_n_n_wf
def gather_S4x100000_S3200000x1_S4x3200000_0_1_n_n_1_1_41 : GatherDims S4x100000 S3200000x1 S4x3200000 where
  offsetDims := [0]
  collapsedSliceDims := [1]
  operandBatchingDims := []
  startIndicesBatchingDims := []
  startIndexMap := [1]
  indexVectorDim := 1
  sliceSizes := ![4, 1]
  wf := gather_S4x100000_S3200000x1_S4x3200000_0_1_n_n_1_1_41_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x8.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S4x25600.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S4x25600.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S25600.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S25600.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S25600.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x256 : Shape := ⟨2, ![100000, 256]⟩
abbrev S3200000 : Shape := ⟨1, ![3200000]⟩
abbrev S256x4 : Shape := ⟨2, ![256, 4]⟩
abbrev S4 : Shape := ⟨1, ![4]⟩
abbrev S100000x4 : Shape := ⟨2, ![100000, 4]⟩
abbrev S1x4 : Shape := ⟨2, ![1, 4]⟩
abbrev S_ : Shape := ⟨0, ![]⟩
abbrev S3200000x1 : Shape := ⟨2, ![3200000, 1]⟩
abbrev S3200000x4 : Shape := ⟨2, ![3200000, 4]⟩
abbrev S100000 : Shape := ⟨1, ![100000]⟩

abbrev nBuf : Space → Nat
  | .hbm => 86
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S3200000, .f32⟩
  | .hbm, ⟨2, _⟩ => ⟨S3200000, .f32⟩
  | .hbm, ⟨3, _⟩ => ⟨S3200000, .i32⟩
  | .hbm, ⟨4, _⟩ => ⟨S3200000, .i32⟩
  | .hbm, ⟨5, _⟩ => ⟨S256x4, .f32⟩
  | .hbm, ⟨6, _⟩ => ⟨S4, .f32⟩
  | .hbm, ⟨7, _⟩ => ⟨S256x4, .f32⟩
  | .hbm, ⟨8, _⟩ => ⟨S100000x4, .f32⟩
  | .hbm, ⟨9, _⟩ => ⟨S1x4, .f32⟩
  | .hbm, ⟨10, _⟩ => ⟨S100000x4, .f32⟩
  | .hbm, ⟨11, _⟩ => ⟨S100000x4, .f32⟩
  | .hbm, ⟨12, _⟩ => ⟨S100000x4, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x4, .f32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000x4, .f32⟩
  | .hbm, ⟨31, _⟩ => ⟨S3200000x4, .f32⟩
  | .hbm, ⟨32, _⟩ => ⟨S3200000x4, .f32⟩
  | .hbm, ⟨33, _⟩ => ⟨S3200000x1, .f32⟩
  | .hbm, ⟨34, _⟩ => ⟨S3200000, .f32⟩
  | .hbm, ⟨35, _⟩ => ⟨S3200000x1, .f32⟩
  | .hbm, ⟨36, _⟩ => ⟨S3200000, .f32⟩
  | .hbm, ⟨37, _⟩ => ⟨S3200000, .f32⟩
  | .hbm, ⟨38, _⟩ => ⟨S3200000, .f32⟩
  | .hbm, ⟨39, _⟩ => ⟨S3200000, .f32⟩
  | .hbm, ⟨40, _⟩ => ⟨S3200000, .f32⟩
  | .hbm, ⟨41, _⟩ => ⟨S3200000x1, .f32⟩
  | .hbm, ⟨42, _⟩ => ⟨S3200000, .f32⟩
  | .hbm, ⟨43, _⟩ => ⟨S3200000x1, .f32⟩
  | .hbm, ⟨44, _⟩ => ⟨S3200000, .f32⟩
  | .hbm, ⟨45, _⟩ => ⟨S3200000, .f32⟩
  | .hbm, ⟨46, _⟩ => ⟨S3200000, .f32⟩
  | .hbm, ⟨47, _⟩ => ⟨S3200000, .f32⟩
  | .hbm, ⟨48, _⟩ => ⟨S3200000, .f32⟩
  | .hbm, ⟨49, _⟩ => ⟨S_, .f32⟩
  | .hbm, ⟨50, _⟩ => ⟨S3200000, .f32⟩
  | .hbm, ⟨51, _⟩ => ⟨S3200000, .i1⟩
  | .hbm, ⟨52, _⟩ => ⟨S_, .f32⟩
  | .hbm, ⟨53, _⟩ => ⟨S3200000, .f32⟩
  | .hbm, ⟨54, _⟩ => ⟨S3200000, .f32⟩
  | .hbm, ⟨55, _⟩ => ⟨S_, .f32⟩
  | .hbm, ⟨56, _⟩ => ⟨S3200000, .f32⟩
  | .hbm, ⟨57, _⟩ => ⟨S3200000, .f32⟩
  | .hbm, ⟨58, _⟩ => ⟨S_, .f32⟩
  | .hbm, ⟨59, _⟩ => ⟨S3200000, .f32⟩
  | .hbm, ⟨60, _⟩ => ⟨S3200000, .f32⟩
  | .hbm, ⟨61, _⟩ => ⟨S3200000, .f32⟩
  | .hbm, ⟨62, _⟩ => ⟨S_, .f32⟩
  | .hbm, ⟨63, _⟩ => ⟨S3200000, .f32⟩
  | .hbm, ⟨64, _⟩ => ⟨S3200000, .f32⟩
  | .hbm, ⟨65, _⟩ => ⟨S_, .f32⟩
  | .hbm, ⟨66, _⟩ => ⟨S3200000, .f32⟩
  | .hbm, ⟨67, _⟩ => ⟨S3200000, .f32⟩
  | .hbm, ⟨68, _⟩ => ⟨S_, .f32⟩
  | .hbm, ⟨69, _⟩ => ⟨S_, .f32⟩
  | .hbm, ⟨70, _⟩ => ⟨S3200000, .f32⟩
  | .hbm, ⟨71, _⟩ => ⟨S3200000, .f32⟩
  | .hbm, ⟨72, _⟩ => ⟨S_, .f32⟩
  | .hbm, ⟨73, _⟩ => ⟨S3200000, .f32⟩
  | .hbm, ⟨74, _⟩ => ⟨S3200000, .i1⟩
  | .hbm, ⟨75, _⟩ => ⟨S_, .f32⟩
  | .hbm, ⟨76, _⟩ => ⟨S_, .f32⟩
  | .hbm, ⟨77, _⟩ => ⟨S3200000, .f32⟩
  | .hbm, ⟨78, _⟩ => ⟨S3200000, .f32⟩
  | .hbm, ⟨79, _⟩ => ⟨S3200000, .f32⟩
  | .hbm, ⟨80, _⟩ => ⟨S3200000, .f32⟩
  | .hbm, ⟨81, _⟩ => ⟨S3200000, .f32⟩
  | .hbm, ⟨82, _⟩ => ⟨S_, .f32⟩
  | .hbm, ⟨83, _⟩ => ⟨S100000, .f32⟩
  | .hbm, ⟨84, _⟩ => ⟨S3200000x1, .i32⟩
  | .hbm, ⟨85, _⟩ => ⟨S100000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst : Ref sig .tc := ⟨.hbm, 49, rfl⟩
abbrev main_v37 : Ref sig .tc := ⟨.hbm, 50, rfl⟩
abbrev main_v38 : Ref sig .tc := ⟨.hbm, 51, rfl⟩
abbrev main_cst_3 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_6 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_call0_v0 : Ref sig .tc := ⟨.hbm, 69, rfl⟩
abbrev main_call0_v1 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_call1_v0 : Ref sig .tc := ⟨.hbm, 76, rfl⟩
abbrev main_call1_v1 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  slices_S3200000x4_S3200000x1_0_0 : S3200000x4.Slices ![0, 0] S3200000x1
  shapeCasts_S3200000x1_S3200000 : S3200000x1.ShapeCasts S3200000
  slices_S3200000x4_S3200000x1_0_1 : S3200000x4.Slices ![0, 1] S3200000x1
  slices_S3200000x4_S3200000x1_0_2 : S3200000x4.Slices ![0, 2] S3200000x1
  slices_S3200000x4_S3200000x1_0_3 : S3200000x4.Slices ![0, 3] S3200000x1
  bcast_S_S100000 : S_.BroadcastsInDim S100000 (![] : Fin 0 → Fin S100000.rank)
  dot_S100000x256_S256x4_S100000x4_1_0_0_1_n_n_wf : DotDims.WF S100000x256 S256x4 S100000x4 [1] [0] [0] [1] [] []
  gather_S100000x4_S3200000x1_S3200000x4_1_0_n_n_0_1_14_wf : GatherDims.WF S100000x4 S3200000x1 S3200000x4 [1] [0] [] [0] [] 1 ![1, 4]
  scatter_S100000_S3200000x1_S3200000_n_0_0_1_wf : ScatterDims.WF S100000 S3200000x1 S3200000 [] [0] [0] 1

variable [Facts₀]

def dot_S100000x256_S256x4_S100000x4_1_0_0_1_n_n : DotDims S100000x256 S256x4 S100000x4 where
  lhsContracting := [1]
  rhsContracting := [0]
  lhsNonContracting := [0]
  rhsNonContracting := [1]
  lhsBatch := []
  rhsBatch := []
  wf := dot_S100000x256_S256x4_S100000x4_1_0_0_1_n_n_wf
def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf

class Facts : Prop extends Facts₀ where

variable [Facts]
-- ==== Proof.Spec.lean ====
/-
  The mathematics both programs compute, stated once, free of either program.

  Every node n carries two 4-vectors, rows of the projected tables  X·W_src + b  and  X·W_dst.  An edge e from
  node s to node d has parameters  p = exp(row_s + row_d)  (four of them), a bond length r and a bond order o, and
  contributes the pair energy
        cut(r) · ( p₀·exp(−p₁·r) − o·p₂·exp(−p₃·r) )
  to node d, where cut is a smooth switch: 1 below 3.8, 0 above 4.0 and ½ − ½·sin(π·(r − 3.9)/0.2) between.  All
  constants are the f32 words the two programs share, read as the exact reals they encode.  Subtraction from the
  zero word stands for negation.
-/
import Idealize.ShloMosaic.PureOps.Ideal
import Idealize.ShloMosaic.PureOps.Ideal.Laws
import Idealize.ShloMosaic.Lib.ValueIdx

noncomputable section

namespace BondEnergy

open Idealize.ShloMosaic Idealize.ShloMosaic.ValueIdx

/-- The smooth cutoff of a bond length. -/
def cut (r : EReal) : EReal :=
  Scalar.select (Ideal.cmp .ogt r (Ideal.ofBits .f32 0x40800000#32)) (Ideal.ofBits .f32 0x00000000#32)
    (Scalar.select (Ideal.cmp .olt r (Ideal.ofBits .f32 0x40733333#32)) (Ideal.ofBits .f32 0x3F800000#32)
      (Ideal.ofBits .f32 0x3F000000#32 - Ideal.ofBits .f32 0x3F000000#32 *
        Ideal.sin (Ideal.div (Ideal.ofBits .f32 0x40490FDB#32 * (r - Ideal.ofBits .f32 0x4079999A#32))
          (Ideal.ofBits .f32 0x3E4CCCCD#32))))

/-- The pair energy of one edge: s and d are the two gathered 4-vectors, r the bond length, o the bond order. -/
def pair (s d : Fin 4 → EReal) (r o : EReal) : EReal :=
  cut r * (Ideal.exp (s 0 + d 0) * Ideal.exp ((Ideal.ofBits .f32 0x00000000#32 - Ideal.exp (s 1 + d 1)) * r)
    - o * (Ideal.exp (s 2 + d 2) * Ideal.exp ((Ideal.ofBits .f32 0x00000000#32 - Ideal.exp (s 3 + d 3)) * r)))

/-- The edge energies from the two gathered arrays laid out with the edge on the last axis. -/
def pairArr (ES ED : (⟨2, ![4, 3200000]⟩ : Shape).Idx → EReal) (BL BO : (⟨1, ![3200000]⟩ : Shape).Idx → EReal) :
    (⟨1, ![3200000]⟩ : Shape).Idx → EReal :=
  fun i => pair (fun q => ES (ix2 q (i 0))) (fun q => ED (ix2 q (i 0))) (BL i) (BO i)

/-- Entry (n, j) of  X·W + B  for an eight-column weight and a one-row bias. -/
def proj (X : (⟨2, ![100000, 256]⟩ : Shape).Idx → EReal) (W : (⟨2, ![256, 8]⟩ : Shape).Idx → EReal)
    (B : (⟨2, ![1, 8]⟩ : Shape).Idx → EReal) : (⟨2, ![100000, 8]⟩ : Shape).Idx → EReal :=
  fun i => (∑ k : Fin 256, X (ix2 (i 0) k) * W (ix2 k (i 1))) + B (ix2 0 (i 1))

/-- An index into the node axis as Python reads it: a negative one counts from the end. -/
def wrap (x : BitVec 32) : BitVec 32 :=
  Scalar.select (IntOp.cmpi .slt x 0#32) (IntOp.addi x 100000#32) x

/-- The row a gather reads at start index x: x as a signed integer, clamped into the node axis. -/
def row (x : BitVec 32) : Fin 100000 := ⟨min x.toInt.toNat 99999, by omega⟩

end BondEnergy

end
-- ==== Proof.LibTakeScatter.lean ====
/-
  General lemmas, free of any program, for indexing a table by an integer array.

  * An and-reduction of one-bit words from the word 1 is 1 when every word that reduces into the result is 1.
  * Taking COLUMNS of an R×N table at E start indices (the indices laid out E×1): entry (q, e) of the result is the
    table at row q and at the column the e-th start index names, read as a signed integer and clamped into the axis.
  * Taking ROWS of an N×C table the same way: entry (e, q) is the table at the clamped row and column q.
  * Accumulating E updates into N cells at E indices (laid out E×1): update e lands in a cell only when its index,
    read signed, is inside the axis; and the accumulated array depends on the updates only where they land.
-/
import Idealize.ShloMosaic.PureOps.Ideal
import Idealize.ShloMosaic.PureOps.Reduce
import Idealize.ShloMosaic.Lib.Affine
import Idealize.ShloMosaic.Lib.ValueIdx

noncomputable section

namespace TakeScatter

open Idealize.ShloMosaic Idealize.ShloMosaic.ValueIdx

/-! ## An and-reduction that is 1 -/

/-- A left fold by and over words that are all 1, from 1, is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self), show IntOp.andi 1#1 1#1 = 1#1 from by decide]
    exact foldl_andi_ones f l fun n hn => h n (List.mem_cons_of_mem _ hn)

/-- An and-reduction from 1 is 1 at j when every word that reduces into j is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, h.drop i = j → x i = 1#1) : Host.reduce IntOp.andi x init h hu j = 1#1 := by
  rw [Host.reduce_eq_foldl, hinit]
  refine foldl_andi_ones x _ fun i hi => hx i ?_
  have := (List.mem_filter.1 hi).2
  simpa using this

/-! ## Columns of a table at an array of start indices -/

private theorem fin2_01 : (0 : Fin 2) ≠ 1 := by decide
private theorem fin2_10 : (1 : Fin 2) ≠ 0 := by decide

section Take
variable {α : Type}

/-- The dimension numbers of `x[:, idx]`: operand R×N, start indices E×1, result R×E. -/
abbrev colDims (R N E : Nat) (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- Entry (q, e) of the column take: row q, the column the e-th start index names, clamped into the axis. -/
theorem col_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (q : Fin R) (e : Fin E) :
    Host.gather (colDims R N E wf) x idx (ix2 q e)
      = x (ix2 q ⟨min (idx (ix2 e (0 : Fin 1))).toInt.toNat (N - 1), by omega⟩) := by
  unfold Host.gather
  refine congrArg x (funext fun a => Fin.ext ?_)
  match a with
  | ⟨0, _⟩ =>
    show (colDims R N E wf).start (ix2 q e) idx 0 + (colDims R N E wf).batchCoord (ix2 q e) 0
      + (colDims R N E wf).offCoord (ix2 q e) 0 = q.val
    rw [GatherDims.batchCoord_eq_zero _ _ _ List.not_mem_nil]
    have hs : (colDims R N E wf).start (ix2 q e) idx 0 = 0 := by
      unfold GatherDims.start; rw [dif_neg (fun h => fin2_01 (List.mem_singleton.mp h))]
    have ho : (colDims R N E wf).offCoord (ix2 q e) 0 = q.val := by
      unfold GatherDims.offCoord
      rw [dif_pos ((GatherDims.mem_sKept _ _).2 ⟨fun h => fin2_01 (List.mem_singleton.mp h), List.not_mem_nil⟩)]; rfl
    omega
  | ⟨1, _⟩ =>
    show (colDims R N E wf).start (ix2 q e) idx 1 + (colDims R N E wf).batchCoord (ix2 q e) 1
      + (colDims R N E wf).offCoord (ix2 q e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims R N E wf).startIndexMap from List.mem_singleton.mpr rfl)]
    have hsi : (colDims R N E wf).siIdx (ix2 q e) ⟨List.idxOf (1 : Fin 2) (colDims R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of `x[idx]` (rows): operand N×C, start indices E×1, result E×C. -/
abbrev rowDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry (e, q) of the row take: the row the e-th start index names, clamped into the axis, column q. -/
theorem row_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q)
      = x (ix2 ⟨min (idx (ix2 e (0 : Fin 1))).toInt.toNat (N - 1), by omega⟩ q) := by
  unfold Host.gather
  refine congrArg x (funext fun a => Fin.ext ?_)
  match a with
  | ⟨0, _⟩ =>
    show (rowDims N C E wf).start (ix2 e q) idx 0 + (rowDims N C E wf).batchCoord (ix2 e q) 0
      + (rowDims N C E wf).offCoord (ix2 e q) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e q) idx 1 + (rowDims N C E wf).batchCoord (ix2 e q) 1
      + (rowDims N C E wf).offCoord (ix2 e q) 1 = q.val
    rw [GatherDims.batchCoord_eq_zero _ _ _ List.not_mem_nil]
    have hs : (rowDims N C E wf).start (ix2 e q) idx 1 = 0 := by
      unfold GatherDims.start; rw [dif_neg (fun h => fin2_10 (List.mem_singleton.mp h))]
    have ho : (rowDims N C E wf).offCoord (ix2 e q) 1 = q.val := by
      unfold GatherDims.offCoord
      rw [dif_pos ((GatherDims.mem_sKept _ _).2 ⟨fun h => fin2_10 (List.mem_singleton.mp h), List.not_mem_nil⟩)]; rfl
    omega

end Take

/-! ## Accumulating updates at an array of indices -/

/-- The dimension numbers of `zeros(N).at[idx].add(u)`: operand N, indices E×1, updates E. -/
abbrev addDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands in a cell only when its index, read signed, is inside the axis. -/
theorem lands_inside {N E w : Nat} (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (addDims N E wf).resultIdx? (ix1 e) idx = some i) :
    0 ≤ (idx (ix2 e (0 : Fin 1))).toInt ∧ (idx (ix2 e (0 : Fin 1))).toInt < N := by
  unfold ScatterDims.resultIdx? at h
  split at h
  · rename_i hall
    have h0 := hall 0
    have hw : (addDims N E wf).window (ix1 e) 0 = 0 := by
      unfold ScatterDims.window
      rw [dif_neg (by simp [ScatterDims.sKept, Shape.kept])]
    have hs : (addDims N E wf).start (ix1 e) idx 0 = (idx (ix2 e (0 : Fin 1))).toInt := by
      unfold ScatterDims.start
      rw [dif_pos (show (0 : Fin 1) ∈ (addDims N E wf).scatterDimsToOperandDims from List.mem_singleton.mpr rfl)]
      have hsi : (addDims N E wf).siIdx (ix1 e) ⟨List.idxOf (0 : Fin 1) (addDims N E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    rw [hw, hs] at h0
    have hsz : (⟨1, ![N]⟩ : Shape).size 0 = N := rfl
    rw [hsz] at h0
    omega
  · exact absurd h (by simp)

/-- The accumulated array depends on the updates only where they land. -/
theorem scatterAdd_congr {s si su : Shape} (d : ScatterDims s si su) {w : Nat} (x : s.Idx → EReal) (idx : IVec si w)
    (u u' : su.Idx → EReal) (h : ∀ j i, d.resultIdx? j idx = some i → u j = u' j) :
    Ideal.hostScatterAdd d x idx u = Ideal.hostScatterAdd d x idx u' := by
  funext i
  unfold Ideal.hostScatterAdd
  exact congrArg _ (Finset.sum_congr rfl fun j hj => h j i (Finset.mem_filter.mp hj).2)

end TakeScatter

end
-- ==== Proof.IndexRange.lean ====
/-
  The index arithmetic of the node axis (extent 100000) on 32-bit words.

  A word x whose signed value lies in [−100000, 100000) is a valid Python index into the axis: wrapping it (adding
  100000 when negative) gives a signed value in [0, 100000), which tests nonnegative and at most 99999, and which the
  clamp of a gather leaves alone.  A word already in [0, 100000) is its own wrap.
-/
import proofs.«419348_j47425028883061_3_alg».proof.Proof.Spec
import Idealize.ShloMosaic.Lib.Affine

noncomputable section

namespace BondEnergy

open Idealize.ShloMosaic Idealize.ShloMosaic.ValueIdx

/-- A 32-bit word's signed value from its unsigned one. -/
theorem toInt_cases (x : BitVec 32) :
    (x.toInt = (x.toNat : Int) ∧ x.toNat < 2147483648) ∨ (x.toInt = (x.toNat : Int) - 4294967296 ∧ 2147483648 ≤ x.toNat) := by
  rw [BitVec.toInt_eq_toNat_cond]
  have := x.isLt
  split <;> omega

/-- The wrap of a valid index lies in the axis. -/
theorem wrap_range (x : BitVec 32) (h : -100000 ≤ x.toInt ∧ x.toInt < 100000) :
    0 ≤ (wrap x).toInt ∧ (wrap x).toInt < 100000 := by
  unfold wrap
  have hz : (0#32 : BitVec 32).toInt = 0 := by decide
  by_cases hneg : x.toInt < 0
  · have hc : IntOp.cmpi .slt x 0#32 = 1#1 := IntOp.cmpi_slt.2 (by rw [hz]; exact hneg)
    rw [hc, select_one]
    show 0 ≤ (x + 100000#32).toInt ∧ (x + 100000#32).toInt < 100000
    have hadd : (x + 100000#32).toNat = (x.toNat + 100000) % 4294967296 := by rw [BitVec.toNat_add]; rfl
    rcases toInt_cases x with ⟨h1, h2⟩ | ⟨h1, h2⟩ <;> rcases toInt_cases (x + 100000#32) with ⟨h3, h4⟩ | ⟨h3, h4⟩ <;> omega
  · have hc : IntOp.cmpi .slt x 0#32 = 0#1 :=
      eq_zero_of_ne_one fun h1 => hneg (by have := IntOp.cmpi_slt.1 h1; rwa [hz] at this)
    rw [hc, select_zero]
    omega

/-- A word already in the axis is its own wrap. -/
theorem wrap_of_nonneg (x : BitVec 32) (h : 0 ≤ x.toInt) : wrap x = x := by
  unfold wrap
  have hz : (0#32 : BitVec 32).toInt = 0 := by decide
  have hc : IntOp.cmpi .slt x 0#32 = 0#1 :=
    eq_zero_of_ne_one fun h1 => by have := IntOp.cmpi_slt.1 h1; rw [hz] at this; omega
  rw [hc, select_zero]

/-- A word in the axis tests nonnegative … -/
theorem sge_zero (y : BitVec 32) (h : 0 ≤ y.toInt) : IntOp.cmpi .sge y 0#32 = 1#1 :=
  IntOp.cmpi_sge.2 (by rw [show (0#32 : BitVec 32).toInt = 0 from by decide]; exact h)

/-- … and at most the last index. -/
theorem sle_last (y : BitVec 32) (h : y.toInt < 100000) : IntOp.cmpi .sle y 99999#32 = 1#1 :=
  IntOp.cmpi_sle.2 (by rw [show (99999#32 : BitVec 32).toInt = 99999 from by decide]; omega)

/-- The row a gather reads at a word in the axis is that word's value. -/
theorem row_val (y : BitVec 32) (h : 0 ≤ y.toInt ∧ y.toInt < 100000) : ((row y).val : Int) = y.toInt := by
  show ((min y.toInt.toNat 99999 : Nat) : Int) = y.toInt
  omega

end BondEnergy

end
-- ==== Proof.HostTake.lean ====
import proofs.«419348_j47425028883061_3_alg».proof.Proof.Gen.KernelIdeal.Frame
import proofs.«419348_j47425028883061_3_alg».proof.Proof.Spec
import proofs.«419348_j47425028883061_3_alg».proof.Proof.LibTakeScatter
import proofs.«419348_j47425028883061_3_alg».proof.Proof.IndexRange
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The masked column take: `T[:, idx]` of a (4, N) table at an integer array, Python's way.  A negative index is
    wrapped; where the wrapped index falls outside the axis the entry is filled (the fill is never read where the
    index is valid); elsewhere it is the table's column at that index. -/

/-- The indices as Python wraps them. -/
def wrapped (idx : IVec S3200000 32) : IVec S3200000 32 :=
  select (cmpi .slt idx (broadcastInDim S3200000 ![] bcast_S_S3200000 (constantI S_ 32 0#32)))
    (addi idx (broadcastInDim S3200000 ![] bcast_S_S3200000 (constantI S_ 32 100000#32))) idx

/-- The wrapped indices laid out as the gather's start indices. -/
def starts (idx : IVec S3200000 32) : IVec S3200000x1 32 :=
  broadcastInDim S3200000x1 ![0] bcast_S3200000_S3200000x1_0 (wrapped idx)

/-- The test "the wrapped index is inside the axis", per edge. -/
def inside (idx : IVec S3200000 32) : IVec S3200000 1 :=
  Host.reduce IntOp.andi
    (andi (cmpi .sge (starts idx) (broadcastInDim S3200000x1 ![] bcast_S_S3200000x1 (constantI S_ 32 0#32)))
      (cmpi .sle (starts idx) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The masked column take. -/
def takeCols (T : FVec Ideal S4x100000 .f32) (idx : IVec S3200000 32) : FVec Ideal S4x3200000 .f32 :=
  select (broadcastInDim S4x3200000 ![1] bcast_S3200000_S4x3200000_1 (inside idx))
    (Host.gather gather_S4x100000_S3200000x1_S4x3200000_0_1_n_n_1_1_41 T (starts idx))
    (broadcastInDim S4x3200000 ![] bcast_S_S4x3200000 (constant S_ .f32 0x7FC00000#32))

/-- The wrapped index of edge e is the wrap of its index. -/
theorem wrapped_apply (idx : IVec S3200000 32) (e : Fin 3200000) :
    wrapped idx (ix1 e) = BondEnergy.wrap (idx (ix1 e)) := by
  unfold wrapped BondEnergy.wrap
  rw [select_apply]
  show Scalar.select (IntOp.cmpi .slt (idx (ix1 e)) (broadcastInDim S3200000 ![] bcast_S_S3200000 (constantI S_ 32 0#32) (ix1 e)))
    (IntOp.addi (idx (ix1 e)) (broadcastInDim S3200000 ![] bcast_S_S3200000 (constantI S_ 32 100000#32) (ix1 e))) (idx (ix1 e)) = _
  rw [broadcastInDim_apply _ bcast_S_S3200000 (constantI S_ 32 0#32) (ix1 e) ix0 (fun a => a.elim0),
    broadcastInDim_apply _ bcast_S_S3200000 (constantI S_ 32 100000#32) (ix1 e) ix0 (fun a => a.elim0)]
  rfl

/-- The start index of edge e. -/
theorem starts_apply (idx : IVec S3200000 32) (e : Fin 3200000) :
    starts idx (ix2 e (0 : Fin 1)) = BondEnergy.wrap (idx (ix1 e)) := by
  unfold starts
  rw [broadcastInDim_apply _ bcast_S3200000_S3200000x1_0 (wrapped idx) (ix2 e (0 : Fin 1)) (ix1 e) (fun a => match a with
    | ⟨0, _⟩ => by show e.val = if (3200000 : Nat) = 1 then 0 else e.val; rw [if_neg (by decide)])]
  exact wrapped_apply idx e

/-- Where the wrapped index is inside the axis the test says so. -/
theorem inside_apply (idx : IVec S3200000 32) (e : Fin 3200000)
    (h : 0 ≤ (BondEnergy.wrap (idx (ix1 e))).toInt ∧ (BondEnergy.wrap (idx (ix1 e))).toInt < 100000) :
    inside idx (ix1 e) = 1#1 := by
  unfold inside
  refine TakeScatter.reduce_andi_one _ _ _ _ _ rfl fun i hi => ?_
  -- the one entry that reduces into e is (e, 0)
  have hi0 : i = ix2 e (0 : Fin 1) := by
    have h0 : (i 0).val = e.val := by
      have := congrArg (fun j : S3200000.Idx => (j 0).val) hi
      exact this
    funext a; apply Fin.ext
    match a with
    | ⟨0, _⟩ => exact h0
    | ⟨1, _⟩ => show (i 1).val = 0; have h1 : (i 1).val < 1 := (i 1).isLt; omega
  subst hi0
  show IntOp.andi (IntOp.cmpi .sge (starts idx (ix2 e 0)) (broadcastInDim S3200000x1 ![] bcast_S_S3200000x1 (constantI S_ 32 0#32) (ix2 e 0)))
    (IntOp.cmpi .sle (starts idx (ix2 e 0)) (broadcastInDim S3200000x1 ![0, 1] bcast_S1x1_S3200000x1_0_1
        (broadcastInDim S1x1 ![1] bcast_S1_S1x1_1 (constantI S1 32 99999#32)) (ix2 e 0))) = 1#1
  rw [starts_apply,
    broadcastInDim_apply _ bcast_S_S3200000x1 (constantI S_ 32 0#32) (ix2 e (0 : Fin 1)) ix0 (fun a => a.elim0),
    broadcastInDim_apply _ bcast_S1x1_S3200000x1_0_1 _ (ix2 e (0 : Fin 1)) (ix2 (0 : Fin 1) (0 : Fin 1)) (fun a => match a with
      | ⟨0, _⟩ => by show (0 : Nat) = if (1 : Nat) = 1 then 0 else _; rw [if_pos rfl]
      | ⟨1, _⟩ => by show (0 : Nat) = if (1 : Nat) = 1 then 0 else _; rw [if_pos rfl]),
    broadcastInDim_apply _ bcast_S1_S1x1_1 (constantI S1 32 99999#32) (ix2 (0 : Fin 1) (0 : Fin 1)) (ix1 (0 : Fin 1)) (fun a => match a with
      | ⟨0, _⟩ => by show (0 : Nat) = if (1 : Nat) = 1 then 0 else _; rw [if_pos rfl])]
  show IntOp.andi (IntOp.cmpi .sge (BondEnergy.wrap (idx (ix1 e))) 0#32) (IntOp.cmpi .sle (BondEnergy.wrap (idx (ix1 e))) 99999#32) = 1#1
  rw [BondEnergy.sge_zero _ h.1, BondEnergy.sle_last _ h.2]
  decide

/-- Where the wrapped index is inside the axis, the take reads the table's column at it. -/
theorem takeCols_apply (T : FVec Ideal S4x100000 .f32) (idx : IVec S3200000 32) (q : Fin 4) (e : Fin 3200000)
    (h : 0 ≤ (BondEnergy.wrap (idx (ix1 e))).toInt ∧ (BondEnergy.wrap (idx (ix1 e))).toInt < 100000) :
    takeCols T idx (ix2 q e) = T (ix2 q (BondEnergy.row (BondEnergy.wrap (idx (ix1 e))))) := by
  unfold takeCols
  rw [select_apply,
    broadcastInDim_apply _ bcast_S3200000_S4x3200000_1 (inside idx) (ix2 q e) (ix1 e) (fun a => match a with
      | ⟨0, _⟩ => by show e.val = if (3200000 : Nat) = 1 then 0 else e.val; rw [if_neg (by decide)]),
    inside_apply idx e h, select_one]
  show Host.gather (TakeScatter.colDims 4 100000 3200000 gather_S4x100000_S3200000x1_S4x3200000_0_1_n_n_1_1_41_wf) T (starts idx) (ix2 q e) = _
  rw [TakeScatter.col_apply (by decide)]
  refine congrArg (fun n => T (ix2 q n)) (Fin.ext ?_)
  show min (starts idx (ix2 e (0 : Fin 1))).toInt.toNat (100000 - 1) = min (BondEnergy.wrap (idx (ix1 e))).toInt.toNat 99999
  rw [starts_apply]

end Cert.KernelIdeal.HostSide

end
-- ==== Proof.HostTakeStretch.lean ====
import proofs.«419348_j47425028883061_3_alg».proof.Proof.Gen.KernelIdeal.Frame
import proofs.«419348_j47425028883061_3_alg».proof.Proof.Spec
import proofs.«419348_j47425028883061_3_alg».proof.Proof.HostTake
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo

/-! What a stretch of host operations that gathers projected rows to the edges computes, as ONE function of the contents it
    starts from: the masked column take of a table buffer at an index argument.  Here are the pieces every such
    stretch is read with: the range test and the filled gather as plain functions of laid-out start indices, and running
    two lists of operations one after the other. -/

/-- A stretch of host operations leaves alone a buffer none of them writes. -/
macro "unwritten " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- Running two lists of operations one after the other. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op l ih => simp only [List.cons_append, StableHlo.after_cons, ih]

/-- The range test of laid-out start indices. -/
def insideOf (I : IVec S3200000x1 32) : IVec S3200000 1 :=
  Host.reduce IntOp.andi
    (andi (cmpi .sge I (broadcastInDim S3200000x1 ![] bcast_S_S3200000x1 (constantI S_ 32 0#32)))
      (cmpi .sle I (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The gather of a table at start indices, filled where a test fails. -/
def takeOf (T : FVec Ideal S4x100000 .f32) (I : IVec S3200000x1 32) (M : IVec S3200000 1) : FVec Ideal S4x3200000 .f32 :=
  select (broadcastInDim S4x3200000 ![1] bcast_S3200000_S4x3200000_1 M)
    (Host.gather gather_S4x100000_S3200000x1_S4x3200000_0_1_n_n_1_1_41 T I)
    (broadcastInDim S4x3200000 ![] bcast_S_S4x3200000 (constant S_ .f32 0x7FC00000#32))

/-- The masked column take is the gather at the wrapped start indices under their range test. -/
theorem takeCols_eq (T : FVec Ideal S4x100000 .f32) (idx : IVec S3200000 32) :
    takeCols T idx = takeOf T (starts idx) (insideOf (starts idx)) := rfl

end Cert.KernelIdeal.HostSide

end
-- ==== Proof.HostTakeFirst.lean ====
import proofs.«419348_j47425028883061_3_alg».proof.Proof.Gen.KernelIdeal.Frame
import proofs.«419348_j47425028883061_3_alg».proof.Proof.Spec
import proofs.«419348_j47425028883061_3_alg».proof.Proof.HostTakeStretch
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo

/-! One take's stretch of host operations, from any contents: the masked column take of its table buffer at its index
    argument.  The stretch is read in three segments — the start indices; the range test; the gather and the fill — with
    the contents between the segments left arbitrary, so that no segment's term carries another's. -/

/-- The stretch's first eight operations: the wrapped indices laid out as start indices. -/
abbrev seg0A : List (HloOp τ sig (Elt Ideal)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S3200000, .i32⟩) (broadcastInDim S3200000 ![] bcast_S_S3200000),
    StableHlo.TRef.binary (.of main_arg3 : StableHlo.TRef sig ⟨S3200000, .i32⟩) (.of main_call0_v0 : StableHlo.TRef sig ⟨S3200000, .i32⟩) (.of main_call0_v1 : StableHlo.TRef sig ⟨S3200000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S3200000, .i32⟩) (broadcastInDim S3200000 ![] bcast_S_S3200000),
    StableHlo.TRef.binary (.of main_arg3 : StableHlo.TRef sig ⟨S3200000, .i32⟩) (.of main_call0_v2 : StableHlo.TRef sig ⟨S3200000, .i32⟩) (.of main_call0_v3 : StableHlo.TRef sig ⟨S3200000, .i32⟩) addi,
    StableHlo.TRef.ternary (.of main_call0_v1 : StableHlo.TRef sig ⟨S3200000, .i1⟩) (.of main_call0_v3 : StableHlo.TRef sig ⟨S3200000, .i32⟩) (.of main_arg3 : StableHlo.TRef sig ⟨S3200000, .i32⟩) (.of main_call0_v4 : StableHlo.TRef sig ⟨S3200000, .i32⟩) select,
    StableHlo.TRef.unary main_call0_call0.v0 (.of main_call0_v5 : StableHlo.TRef sig ⟨S3200000x1, .i32⟩) (broadcastInDim S3200000x1 ![0] bcast_S3200000_S3200000x1_0) ]
/-- The next ten: the range test. -/
abbrev seg0B : List (HloOp τ sig (Elt Ideal)) :=
  [ StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S3200000x1, .i32⟩) (broadcastInDim S3200000x1 ![] bcast_S_S3200000x1),
    StableHlo.TRef.binary (.of main_call0_v5 : StableHlo.TRef sig ⟨S3200000x1, .i32⟩) (.of main_call0_v6 : StableHlo.TRef sig ⟨S3200000x1, .i32⟩) (.of main_call0_v7 : StableHlo.TRef sig ⟨S3200000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S3200000x1, .i32⟩) (broadcastInDim S3200000x1 ![0, 1] bcast_S1x1_S3200000x1_0_1),
    StableHlo.TRef.binary (.of main_call0_v5 : StableHlo.TRef sig ⟨S3200000x1, .i32⟩) (.of main_call0_v9 : StableHlo.TRef sig ⟨S3200000x1, .i32⟩) (.of main_call0_v10 : StableHlo.TRef sig ⟨S3200000x1, .i1⟩) (cmpi .sle),
    StableHlo.TRef.binary (.of main_call0_v7 : StableHlo.TRef sig ⟨S3200000x1, .i1⟩) (.of main_call0_v10 : StableHlo.TRef sig ⟨S3200000x1, .i1⟩) (.of main_call0_v11 : StableHlo.TRef sig ⟨S3200000x1, .i1⟩) andi,
    StableHlo.TRef.nullary (.of main_call0_c_3 : StableHlo.TRef sig ⟨S_, .i1⟩) (constantI S_ 1 1#1),
    StableHlo.TRef.binary (.of main_call0_v11 : StableHlo.TRef sig ⟨S3200000x1, .i1⟩) (.of main_call0_c_3 : StableHlo.TRef sig ⟨S_, .i1⟩) (.of main_call0_v12 : StableHlo.TRef sig ⟨S3200000, .i1⟩) (fun x v => Host.reduce IntOp.andi x v reducesTo_S3200000x1_S3200000_d1 h_S_) ]
/-- The last five: the gather, and the fill where the test fails. -/
abbrev seg0C : List (HloOp τ sig (Elt Ideal)) :=
  [ StableHlo.TRef.binary (.of main_v7 : StableHlo.TRef sig ⟨S4x100000, .f32⟩) (.of main_call0_v5 : StableHlo.TRef sig ⟨S3200000x1, .i32⟩) (.of main_call0_v13 : StableHlo.TRef sig ⟨S4x3200000, .f32⟩) (fun x i => Host.gather gather_S4x100000_S3200000x1_S4x3200000_0_1_n_n_1_1_41 x i),
    StableHlo.TRef.unary (.of main_call0_v12 : StableHlo.TRef sig ⟨S3200000, .i1⟩) (.of main_call0_v14 : StableHlo.TRef sig ⟨S4x3200000, .i1⟩) (broadcastInDim S4x3200000 ![1] bcast_S3200000_S4x3200000_1),
    StableHlo.TRef.nullary (.of main_call0_cst : StableHlo.TRef sig ⟨S_, .f32⟩) (constant (F := Ideal) S_ .f32 0x7FC00000#32),
    StableHlo.TRef.unary (.of main_call0_cst : StableHlo.TRef sig ⟨S_, .f32⟩) (.of main_call0_v15 : StableHlo.TRef sig ⟨S4x3200000, .f32⟩) (broadcastInDim S4x3200000 ![] bcast_S_S4x3200000),
    StableHlo.TRef.ternary (.of main_call0_v14 : StableHlo.TRef sig ⟨S4x3200000, .i1⟩) (.of main_call0_v13 : StableHlo.TRef sig ⟨S4x3200000, .f32⟩) (.of main_call0_v15 : StableHlo.TRef sig ⟨S4x3200000, .f32⟩) (.of main_v9 : StableHlo.TRef sig ⟨S4x3200000, .f32⟩) select ]

theorem split0 : (hostOps1_1 : List (HloOp τ sig (Elt Ideal))) = seg0A ++ (seg0B ++ seg0C) := rfl

theorem seg0A_starts (w : Valuation τ sig (Elt Ideal)) :
    StableHlo.after seg0A w (Proc.devRef .tc main_call0_v5) = starts (w (Proc.devRef .tc main_arg3)) := by
  after_results
  simp only [TRef.ofBuf, TRef.toBuf, cast_eq]
  rfl

theorem seg0A_table (w : Valuation τ sig (Elt Ideal)) :
    StableHlo.after seg0A w (Proc.devRef .tc main_v7) = w (Proc.devRef .tc main_v7) := by
  unwritten seg0A

theorem seg0B_inside (w : Valuation τ sig (Elt Ideal)) :
    StableHlo.after seg0B w (Proc.devRef .tc main_call0_v12) = insideOf (w (Proc.devRef .tc main_call0_v5)) := by
  after_results
  simp only [TRef.ofBuf, TRef.toBuf, cast_eq]
  rfl

theorem seg0B_table (w : Valuation τ sig (Elt Ideal)) :
    StableHlo.after seg0B w (Proc.devRef .tc main_v7) = w (Proc.devRef .tc main_v7) := by
  unwritten seg0B

theorem seg0B_starts (w : Valuation τ sig (Elt Ideal)) :
    StableHlo.after seg0B w (Proc.devRef .tc main_call0_v5) = w (Proc.devRef .tc main_call0_v5) := by
  unwritten seg0B

theorem seg0C_take (w : Valuation τ sig (Elt Ideal)) :
    StableHlo.after seg0C w (Proc.devRef .tc main_v9)
      = takeOf (w (Proc.devRef .tc main_v7)) (w (Proc.devRef .tc main_call0_v5)) (w (Proc.devRef .tc main_call0_v12)) := by
  after_results
  simp only [TRef.ofBuf, TRef.toBuf, cast_eq]
  rfl

/-- The whole stretch, from any contents. -/
theorem take0 (w : Valuation τ sig (Elt Ideal)) :
    StableHlo.after hostOps1_1 w (Proc.devRef .tc main_v9) = takeCols (w (Proc.devRef .tc main_v7)) (w (Proc.devRef .tc main_arg3)) := by
  rw [split0, after_append, after_append, seg0C_take, seg0B_table, seg0B_starts, seg0B_inside, seg0A_table, seg0A_starts]
  rfl

end Cert.KernelIdeal.HostSide

end
-- ==== Proof.HostTakeSecond.lean ====
import proofs.«419348_j47425028883061_3_alg».proof.Proof.Gen.KernelIdeal.Frame
import proofs.«419348_j47425028883061_3_alg».proof.Proof.Spec
import proofs.«419348_j47425028883061_3_alg».proof.Proof.HostTakeStretch
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo

/-! One take's stretch of host operations, from any contents: the masked column take of its table buffer at its index
    argument.  The stretch is read in three segments — the start indices; the range test; the gather and the fill — with
    the contents between the segments left arbitrary, so that no segment's term carries another's. -/

/-- The stretch's first eight operations: the wrapped indices laid out as start indices. -/
abbrev seg1A : List (HloOp τ sig (Elt Ideal)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S3200000, .i32⟩) (broadcastInDim S3200000 ![] bcast_S_S3200000),
    StableHlo.TRef.binary (.of main_arg4 : StableHlo.TRef sig ⟨S3200000, .i32⟩) (.of main_call1_v0 : StableHlo.TRef sig ⟨S3200000, .i32⟩) (.of main_call1_v1 : StableHlo.TRef sig ⟨S3200000, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S3200000, .i32⟩) (broadcastInDim S3200000 ![] bcast_S_S3200000),
    StableHlo.TRef.binary (.of main_arg4 : StableHlo.TRef sig ⟨S3200000, .i32⟩) (.of main_call1_v2 : StableHlo.TRef sig ⟨S3200000, .i32⟩) (.of main_call1_v3 : StableHlo.TRef sig ⟨S3200000, .i32⟩) addi,
    StableHlo.TRef.ternary (.of main_call1_v1 : StableHlo.TRef sig ⟨S3200000, .i1⟩) (.of main_call1_v3 : StableHlo.TRef sig ⟨S3200000, .i32⟩) (.of main_arg4 : StableHlo.TRef sig ⟨S3200000, .i32⟩) (.of main_call1_v4 : StableHlo.TRef sig ⟨S3200000, .i32⟩) select,
    StableHlo.TRef.unary main_call1_call0.v0 (.of main_call1_v5 : StableHlo.TRef sig ⟨S3200000x1, .i32⟩) (broadcastInDim S3200000x1 ![0] bcast_S3200000_S3200000x1_0) ]
/-- The next ten: the range test. -/
abbrev seg1B : List (HloOp τ sig (Elt Ideal)) :=
  [ StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S3200000x1, .i32⟩) (broadcastInDim S3200000x1 ![] bcast_S_S3200000x1),
    StableHlo.TRef.binary (.of main_call1_v5 : StableHlo.TRef sig ⟨S3200000x1, .i32⟩) (.of main_call1_v6 : StableHlo.TRef sig ⟨S3200000x1, .i32⟩) (.of main_call1_v7 : StableHlo.TRef sig ⟨S3200000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S3200000x1, .i32⟩) (broadcastInDim S3200000x1 ![0, 1] bcast_S1x1_S3200000x1_0_1),
    StableHlo.TRef.binary (.of main_call1_v5 : StableHlo.TRef sig ⟨S3200000x1, .i32⟩) (.of main_call1_v9 : StableHlo.TRef sig ⟨S3200000x1, .i32⟩) (.of main_call1_v10 : StableHlo.TRef sig ⟨S3200000x1, .i1⟩) (cmpi .sle),
    StableHlo.TRef.binary (.of main_call1_v7 : StableHlo.TRef sig ⟨S3200000x1, .i1⟩) (.of main_call1_v10 : StableHlo.TRef sig ⟨S3200000x1, .i1⟩) (.of main_call1_v11 : StableHlo.TRef sig ⟨S3200000x1, .i1⟩) andi,
    StableHlo.TRef.nullary (.of main_call1_c_3 : StableHlo.TRef sig ⟨S_, .i1⟩) (constantI S_ 1 1#1),
    StableHlo.TRef.binary (.of main_call1_v11 : StableHlo.TRef sig ⟨S3200000x1, .i1⟩) (.of main_call1_c_3 : StableHlo.TRef sig ⟨S_, .i1⟩) (.of main_call1_v12 : StableHlo.TRef sig ⟨S3200000, .i1⟩) (fun x v => Host.reduce IntOp.andi x v reducesTo_S3200000x1_S3200000_d1 h_S_) ]
/-- The last five: the gather, and the fill where the test fails. -/
abbrev seg1C : List (HloOp τ sig (Elt Ideal)) :=
  [ StableHlo.TRef.binary (.of main_v8 : StableHlo.TRef sig ⟨S4x100000, .f32⟩) (.of main_call1_v5 : StableHlo.TRef sig ⟨S3200000x1, .i32⟩) (.of main_call1_v13 : StableHlo.TRef sig ⟨S4x3200000, .f32⟩) (fun x i => Host.gather gather_S4x100000_S3200000x1_S4x3200000_0_1_n_n_1_1_41 x i),
    StableHlo.TRef.unary (.of main_call1_v12 : StableHlo.TRef sig ⟨S3200000, .i1⟩) (.of main_call1_v14 : StableHlo.TRef sig ⟨S4x3200000, .i1⟩) (broadcastInDim S4x3200000 ![1] bcast_S3200000_S4x3200000_1),
    StableHlo.TRef.nullary (.of main_call1_cst : StableHlo.TRef sig ⟨S_, .f32⟩) (constant (F := Ideal) S_ .f32 0x7FC00000#32),
    StableHlo.TRef.unary (.of main_call1_cst : StableHlo.TRef sig ⟨S_, .f32⟩) (.of main_call1_v15 : StableHlo.TRef sig ⟨S4x3200000, .f32⟩) (broadcastInDim S4x3200000 ![] bcast_S_S4x3200000),
    StableHlo.TRef.ternary (.of main_call1_v14 : StableHlo.TRef sig ⟨S4x3200000, .i1⟩) (.of main_call1_v13 : StableHlo.TRef sig ⟨S4x3200000, .f32⟩) (.of main_call1_v15 : StableHlo.TRef sig ⟨S4x3200000, .f32⟩) (.of main_v10 : StableHlo.TRef sig ⟨S4x3200000, .f32⟩) select ]

theorem split1 : (hostOps1_2 : List (HloOp τ sig (Elt Ideal))) = seg1A ++ (seg1B ++ seg1C) := rfl

theorem seg1A_starts (w : Valuation τ sig (Elt Ideal)) :
    StableHlo.after seg1A w (Proc.devRef .tc main_call1_v5) = starts (w (Proc.devRef .tc main_arg4)) := by
  after_results
  simp only [TRef.ofBuf, TRef.toBuf, cast_eq]
  rfl

theorem seg1A_table (w : Valuation τ sig (Elt Ideal)) :
    StableHlo.after seg1A w (Proc.devRef .tc main_v8) = w (Proc.devRef .tc main_v8) := by
  unwritten seg1A

theorem seg1B_inside (w : Valuation τ sig (Elt Ideal)) :
    StableHlo.after seg1B w (Proc.devRef .tc main_call1_v12) = insideOf (w (Proc.devRef .tc main_call1_v5)) := by
  after_results
  simp only [TRef.ofBuf, TRef.toBuf, cast_eq]
  rfl

theorem seg1B_table (w : Valuation τ sig (Elt Ideal)) :
    StableHlo.after seg1B w (Proc.devRef .tc main_v8) = w (Proc.devRef .tc main_v8) := by
  unwritten seg1B

theorem seg1B_starts (w : Valuation τ sig (Elt Ideal)) :
    StableHlo.after seg1B w (Proc.devRef .tc main_call1_v5) = w (Proc.devRef .tc main_call1_v5) := by
  unwritten seg1B

theorem seg1C_take (w : Valuation τ sig (Elt Ideal)) :
    StableHlo.after seg1C w (Proc.devRef .tc main_v10)
      = takeOf (w (Proc.devRef .tc main_v8)) (w (Proc.devRef .tc main_call1_v5)) (w (Proc.devRef .tc main_call1_v12)) := by
  after_results
  simp only [TRef.ofBuf, TRef.toBuf, cast_eq]
  rfl

/-- The whole stretch, from any contents. -/
theorem take1 (w : Valuation τ sig (Elt Ideal)) :
    StableHlo.after hostOps1_2 w (Proc.devRef .tc main_v10) = takeCols (w (Proc.devRef .tc main_v8)) (w (Proc.devRef .tc main_arg4)) := by
  rw [split1, after_append, after_append, seg1C_take, seg1B_table, seg1B_starts, seg1B_inside, seg1A_table, seg1A_starts]
  rfl

end Cert.KernelIdeal.HostSide

end
-- ==== Proof.LibPlainMatmul.lean ====
/-
  General lemmas, free of any program.

  * A `tpu.matmul` of an m×k block by a k×n block into the zero accumulator, read at the entry (a, b) at the ideal
    values, is the plain sum over the contracted coordinate c of A(a, c) · B(c, b): no accumulator term, no chunk order.
    Stated for the record `DotDims.plain m k n` and for any record equal to it (a printed record of the same six
    lists differs from it only in its well-formedness proof).
  * The two coordinates of a rank-2 index built from a pair.
  * The coercion of the reals into the extended reals commutes with finite sums and with the maximum of two reals.
-/
import Idealize.ShloMosaic.PureOps.Ideal.Laws
import Idealize.ShloMosaic.Lib.ValueIdx

noncomputable section

namespace PlainMatmul

open Idealize.ShloMosaic Idealize.ShloMosaic.ValueIdx

/-- The entry (a, b) of the product of an m×k by a k×n matrix accumulated into zero is `∑ c, A(a, c) · B(c, b)`. -/
theorem matmul_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  -- the contraction index built from c has c on its one axis
  have hc := contrEquiv1_symm_val (DotDims.plain m k n) k rfl rfl c
  -- the left operand is read at (a, c): axis 0 is the output's row, axis 1 the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => exact ((DotDims.plain m k n).lhsIdx_val_of_single rfl (ix2 a b) _).trans hc
  -- the right operand is read at (c, b)
  have hr : (DotDims.plain m k n).rhsIdx (ix2 a b) ((contrEquiv1 _ k rfl rfl).symm c) = ix2 c b := by
    funext ax; apply Fin.ext
    match ax with
    | ⟨0, _⟩ => exact ((DotDims.plain m k n).rhsIdx_val_of_single rfl (ix2 a b) _).trans hc
    | ⟨1, _⟩ => simp [DotDims.rhsIdx, DotDims.plain]; rfl
  rw [hl, hr]

/-- The same for any record that IS the plain one. -/
theorem matmul_zero_apply_of_eq {m k n : Nat} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (a : Fin m) (b : Fin n) :
    matmul (F := Ideal) d prec A B (constant ⟨2, ![m, n]⟩ .f32 0x00000000#32) (ix2 a b)
      = ∑ c : Fin k, A (ix2 a c) * B (ix2 c b) := by
  subst hd; exact matmul_zero_apply prec A B a b

/-- A finite sum of reals, coerced, is the sum of the coerced terms. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first coordinate of the index built from (a, b) is a. -/
theorem ix2_at0 {n0 n1 : Nat} (a : Fin n0) (b : Fin n1) : (ix2 a b 0 : Fin n0) = a := rfl
/-- The second coordinate of the index built from (a, b) is b. -/
theorem ix2_at1 {n0 n1 : Nat} (a : Fin n0) (b : Fin n1) : (ix2 a b 1 : Fin n1) = b := rfl

/-- The coercion is monotone, so it commutes with the maximum. -/
theorem coe_max (a b : ℝ) : ((max a b : ℝ) : EReal) = max (a : EReal) (b : EReal) :=
  EReal.coe_strictMono.monotone.map_max

end PlainMatmul

end
-- ==== Proof.NodeRegion.lean ====
import proofs.«419348_j47425028883061_3_alg».proof.Proof.Gen.KernelIdeal.Frame
import proofs.«419348_j47425028883061_3_alg».proof.Proof.Spec
import proofs.«419348_j47425028883061_3_alg».proof.Proof.LibPlainMatmul
import Idealize.ShloMosaic.Lib.Pipeline.Value
import Idealize.ShloMosaic.Lib.ValueIdx
import Idealize.ShloMosaic.PureOps.Ideal.Laws

set_option maxRecDepth 16384

noncomputable section

namespace Cert.KernelIdeal.NodeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The first region, node by node: a grid of 20 points, point t holding rows 5000·t … 5000·t + 4999 of the node
    features with the whole eight-column weight and the one-row bias, and writing back those rows of the projected
    table  X·W + B.  The cast of the two factors to a narrower float format is the identity on the values. -/

/-- The body's arithmetic at entry (a, b) of a block: the row of the features against column b of the weight, summed
    over the 256 features, plus the bias of column b. -/
theorem node_payload (x0 : Vec Ideal S5000x256 .f32) (x1 : Vec Ideal S256x8 .f32) (x2 : Vec Ideal S1x8 .f32)
    (a : Fin 5000) (b : Fin 8) :
    k0_pay1 x0 x1 x2 (ix2 a b) = (∑ k : Fin 256, x0 (ix2 a k) * x1 (ix2 k b)) + x2 (ix2 0 b) := by
  unfold k0_pay1
  rw [addf_apply, shapeCast_self x1, shapeCast_self x2,
    PlainMatmul.matmul_zero_apply_of_eq dot_S5000x256_S256x8_S5000x8_1_0_0_1_n_n rfl none _ _ a b,
    broadcastTo_apply x2 broadcasts_S1x8_S5000x8 (ix2 a b) (ix2 0 b) (fun a' => match a' with
      | ⟨0, _⟩ => by show (0 : Nat) = if (1 : Nat) = 1 then 0 else _; rw [if_pos rfl]
      | ⟨1, _⟩ => by show b.val = if (8 : Nat) = 1 then 0 else b.val; rw [if_neg (by decide)])]
  rfl

/-! ## From blocks to the whole table -/

theorem hz2 : (![0, 0] : Fin 2 → Nat) = fun _ => 0 := funext fun a => by fin_cases a <;> rfl

-- the arrays as the region finds them: any contents of the core's buffers
variable (V : (c : Dev nD) → (b : Ref sig .tc) → Buf (Elt Ideal) ((c : Thread nD τ).loc b))

/-- The printed index maps over the grid: the features' and the table's blocks sit at row block t, the weight and the
    bias are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Node 5000·t + a, a node of the whole axis. -/
abbrev nodeOf (t : Fin cfg0.N) (a : Fin 5000) : Fin 100000 :=
  ⟨t.val * 5000 + a.val, by have := t.isLt; have := a.isLt; have : cfg0.N = 20 := N_0; omega⟩

/-- Point t's block of the features, read at (a, k). -/
theorem read_features (c : Dev nD) (t : Fin cfg0.N) (a : Fin 5000) (k : Fin 256) :
    iblk0 V c 0 t (ix2 a k) = V c main_arg0 (ix2 (nodeOf t a) k) := by
  obtain ⟨e0, e1, -⟩ := idx_facts t
  show V c main_arg0 (((cfg0.win 0).blk t).view.emb (ix2 a k)) = _
  refine congrArg (V c main_arg0) (funext fun x => Fin.ext ?_)
  match x with
  | ⟨0, _⟩ => show win0_0.index t (0 : Fin 2) * 5000 + 1 * a.val = t.val * 5000 + a.val; omega
  | ⟨1, _⟩ => show win0_0.index t (1 : Fin 2) * 256 + 1 * k.val = k.val; omega

/-- The weight's one block is the weight. -/
theorem read_weight (c : Dev nD) (t : Fin cfg0.N) (k : Fin 256) (b : Fin 8) :
    iblk0 V c 1 t (ix2 k b) = V c main_v0 (ix2 k b) := by
  obtain ⟨-, -, e0, e1, -⟩ := idx_facts t
  show V c main_v0 (((cfg0.win 1).blk t).view.emb (ix2 k b)) = _
  refine congrArg (V c main_v0) (funext fun x => Fin.ext ?_)
  match x with
  | ⟨0, _⟩ => show win0_1.index t (0 : Fin 2) * 256 + 1 * k.val = k.val; omega
  | ⟨1, _⟩ => show win0_1.index t (1 : Fin 2) * 8 + 1 * b.val = b.val; omega

/-- The bias's one block is the bias. -/
theorem read_bias (c : Dev nD) (t : Fin cfg0.N) (b : Fin 8) :
    iblk0 V c 2 t (ix2 (0 : Fin 1) b) = V c main_v3 (ix2 (0 : Fin 1) b) := by
  obtain ⟨-, -, -, -, e0, e1, -⟩ := idx_facts t
  show V c main_v3 (((cfg0.win 2).blk t).view.emb (ix2 (0 : Fin 1) b)) = _
  refine congrArg (V c main_v3) (funext fun x => Fin.ext ?_)
  match x with
  | ⟨0, _⟩ => show win0_2.index t (0 : Fin 2) * 1 + 1 * 0 = 0; omega
  | ⟨1, _⟩ => show win0_2.index t (1 : Fin 2) * 8 + 1 * b.val = b.val; omega

/-- The projected table as one function of the arrays the region finds. -/
abbrev table (c : Dev nD) : S100000x8.Idx → EReal :=
  BondEnergy.proj (V c main_arg0) (V c main_v0) (V c main_v3)

/-- What point t writes back is its rows of the projected table. -/
theorem flushed_eq (c : Dev nD) (t : Fin cfg0.N) :
    (dat0 V c).flushed 3 t = ((cfg0.win 3).blk t).view.read (Elt Ideal) (table V c) := by
  show (cfg0.win 3).cut (grid0.coords t) ((dat0 V c).after 3 t) = _
  rw [after0_3]
  unfold out0_3
  rw [View.canon_unit_zero hz2]
  simp only [View.ld_unit_zero (S := S5000x256) hz2, View.ld_unit_zero (S := S256x8) hz2, View.ld_unit_zero (S := S1x8) hz2]
  funext y
  obtain ⟨a, b, rfl⟩ : ∃ (a : Fin 5000) (b : Fin 8), y = ix2 a b := ⟨y 0, y 1, eq_ix2 y⟩
  refine (node_payload (iblk0 V c 0 t) (iblk0 V c 1 t) (iblk0 V c 2 t) a b).trans ?_
  simp only [read_features, read_weight, read_bias]
  obtain ⟨-, -, -, -, -, -, e0, e1⟩ := idx_facts t
  show _ = table V c (((cfg0.win 3).blk t).view.emb (ix2 a b))
  have hemb : ((cfg0.win 3).blk t).view.emb (ix2 a b) = ix2 (nodeOf t a) b := by
    funext x; apply Fin.ext
    match x with
    | ⟨0, _⟩ => show win0_3.index t (0 : Fin 2) * 5000 + 1 * a.val = t.val * 5000 + a.val; omega
    | ⟨1, _⟩ => show win0_3.index t (1 : Fin 2) * 8 + 1 * b.val = b.val; omega
  rw [hemb]
  rfl

/-- An entry is in point t's block iff its row lies in that stretch. -/
theorem mem_blk (t : Fin cfg0.N) (i : S100000x8.Idx) :
    i ∈ ((cfg0.win 3).blk t).view.set ↔ ∀ a : Fin 2, win0_3.index t a * S5000x8.size a ≤ (i a).val ∧ (i a).val < win0_3.index t a * S5000x8.size a + S5000x8.size a := by
  show i ∈ ((View.whole main_v4).slice (win0_3.rect t)).set ↔ _
  rw [View.set_slice_whole, Rect.mem_set_unit]
  exact Iff.rfl

/-- Every entry is in some point's block: the point n / 5000. -/
theorem cover (i : S100000x8.Idx) : ∃ t : Fin cfg0.N, (cfg0.win 3).flush t = true ∧ i ∈ ((cfg0.win 3).blk t).view.set := by
  have hi : (i 0).val < 100000 := (i 0).isLt
  have hi1 : (i 1).val < 8 := (i 1).isLt
  have hN : cfg0.N = 20 := N_0
  refine ⟨⟨(i 0).val / 5000, by omega⟩, flush0_3 _, ?_⟩
  rw [mem_blk]
  intro a
  obtain ⟨-, -, -, -, -, -, e0, e1⟩ := idx_facts ⟨(i 0).val / 5000, by omega⟩
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000
    omega
  | ⟨1, _⟩ =>
    show win0_3.index _ (1 : Fin 2) * 8 ≤ (i 1).val ∧ (i 1).val < win0_3.index _ (1 : Fin 2) * 8 + 8
    rw [e1]; omega

/-- The projected table after the region:  X·W + B  of the arrays the region finds, entry by entry. -/
theorem final (c : Dev nD) : (dat0 V c).arrAt 3 cfg0.N = table V c :=
  (dat0 V c).arrAt_eq_of_cover 3 (table V c) (fun t _ => flushed_eq V c t) (cover)

end Cert.KernelIdeal.NodeRegion

end
-- ==== Proof.EdgeRegion.lean ====
import proofs.«419348_j47425028883061_3_alg».proof.Proof.Gen.KernelIdeal.Frame
import proofs.«419348_j47425028883061_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeRegion

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The second region, edge by edge: a grid of 125 points, point t holding edges 25600·t … 25600·t + 25599 of the
    two gathered (4, E) arrays, the bond lengths and the bond orders, and writing back that stretch of the edge
    energies. -/

/-- Row q of a (4, 25600) block, sliced out and flattened, read at j. -/
theorem row_read (P : FVec Ideal S4x25600 .f32) (off : Fin 2 → Nat) (h : S4x25600.Slices off S1x25600) (q : Fin 4)
    (hq : off = ![q.val, 0]) (j : Fin 25600) :
    shapeCast S25600 (extractStridedSlice S1x25600 off P h) shapeCasts_S1x25600_S25600 (ix1 j) = P (ix2 q j) := by
  subst hq
  rw [shapeCast_apply _ shapeCasts_S1x25600_S25600 (ix1 j) (ix2 (0 : Fin 1) j)
    (by rw [Shape.rowMajor_val_two, Shape.rowMajor_val_one]; show 0 * 25600 + j.val = j.val; omega)]
  exact extractStridedSlice_apply _ P h (ix2 (0 : Fin 1) j) (ix2 q j) (fun a => match a with
    | ⟨0, _⟩ => by show q.val = q.val + 0; omega
    | ⟨1, _⟩ => by show j.val = 0 + j.val; omega)

/-- An exponential of a vector, read at an index. -/
theorem exp_at {s : Shape} {φ : FTy} (a : FVec Ideal s φ) (i : s.Idx) : exp a i = Ideal.exp (a i) := rfl
/-- A sine of a vector, read at an index. -/
theorem sin_at {s : Shape} {φ : FTy} (a : FVec Ideal s φ) (i : s.Idx) : sin a i = Ideal.sin (a i) := rfl

/-- The four edge parameters: the exponential of the sum of the two gathered blocks, entry by entry. -/
theorem params_apply (x0 x1 : Vec Ideal S4x25600 .f32) (i : S4x25600.Idx) :
    k1_pay2 x0 x1 i = Ideal.exp (x0 i + x1 i) := by
  unfold k1_pay2
  rw [shapeCast_self, shapeCast_self]
  rfl

/-- The body's arithmetic at edge j of a block is the pair energy of that edge. -/
theorem edge_payload (x0 x1 : Vec Ideal S4x25600 .f32) (x2 x3 : Vec Ideal S25600 .f32) (j : Fin 25600) :
    k1_pay1 x3 (k1_pay3 x0 x1 x2) (k1_pay4 x0 x1 x2) (k1_pay5 x2) (k1_pay6 x2) (ix1 j)
      = BondEnergy.pair (fun q => x0 (ix2 q j)) (fun q => x1 (ix2 q j)) (x2 (ix1 j)) (x3 (ix1 j)) := by
  unfold k1_pay1 k1_pay3 k1_pay4 k1_pay5 k1_pay6 BondEnergy.pair BondEnergy.cut
  dsimp only
  simp only [mulf_apply, subf_apply, select_apply, broadcast_apply, cmpf_apply, divf_apply, exp_at, sin_at]
  rw [row_read _ _ slices_S4x25600_o0_0_S1x25600 0 rfl j, row_read _ _ slices_S4x25600_o1_0_S1x25600 1 rfl j,
    row_read _ _ slices_S4x25600_o2_0_S1x25600 2 rfl j, row_read _ _ slices_S4x25600_o3_0_S1x25600 3 rfl j]
  simp only [params_apply]
  rfl

/-! ## From blocks to the whole edge array -/

theorem hz1 : (![0] : Fin 1 → Nat) = fun _ => 0 := funext fun a => by fin_cases a; rfl
theorem hz2 : (![0, 0] : Fin 2 → Nat) = fun _ => 0 := funext fun a => by fin_cases a <;> rfl

-- the arrays as the region finds them: any contents of the core's buffers
variable (V : (c : Dev nD) → (b : Ref sig .tc) → Buf (Elt Ideal) ((c : Thread nD τ).loc b))

/-- The printed index maps over the grid: the two gathered arrays' blocks sit at row block 0 and edge block t, the
    three flat arrays' at edge block t. -/
theorem idx_facts : ∀ t : Fin cfg1.N,
    win1_0.index t (0 : Fin 2) = 0 ∧ win1_0.index t (1 : Fin 2) = t.val
    ∧ win1_1.index t (0 : Fin 2) = 0 ∧ win1_1.index t (1 : Fin 2) = t.val
    ∧ win1_2.index t (0 : Fin 1) = t.val ∧ win1_3.index t (0 : Fin 1) = t.val ∧ win1_4.index t (0 : Fin 1) = t.val :=
  (by decide +kernel : ∀ t : Fin grid1.N, _)

/-- Edge 25600·t + j, an edge of the whole axis. -/
abbrev edgeOf (t : Fin cfg1.N) (j : Fin 25600) : Fin 3200000 :=
  ⟨t.val * 25600 + j.val, by have := t.isLt; have := j.isLt; have : cfg1.N = 125 := N_1; omega⟩

/-- Point t's block of a gathered array, read at (q, j), is the array at (q, edge 25600·t + j). -/
theorem read_gathered0 (c : Dev nD) (t : Fin cfg1.N) (q : Fin 4) (j : Fin 25600) :
    iblk1 V c 0 t (ix2 q j) = V c main_v9 (ix2 q (edgeOf t j)) := by
  obtain ⟨e0, e1, -⟩ := idx_facts t
  show V c main_v9 (((cfg1.win 0).blk t).view.emb (ix2 q j)) = _
  refine congrArg (V c main_v9) (funext fun a => Fin.ext ?_)
  match a with
  | ⟨0, _⟩ => show win1_0.index t (0 : Fin 2) * 4 + 1 * q.val = q.val; omega
  | ⟨1, _⟩ => show win1_0.index t (1 : Fin 2) * 25600 + 1 * j.val = t.val * 25600 + j.val; omega

theorem read_gathered1 (c : Dev nD) (t : Fin cfg1.N) (q : Fin 4) (j : Fin 25600) :
    iblk1 V c 1 t (ix2 q j) = V c main_v10 (ix2 q (edgeOf t j)) := by
  obtain ⟨-, -, e0, e1, -⟩ := idx_facts t
  show V c main_v10 (((cfg1.win 1).blk t).view.emb (ix2 q j)) = _
  refine congrArg (V c main_v10) (funext fun a => Fin.ext ?_)
  match a with
  | ⟨0, _⟩ => show win1_1.index t (0 : Fin 2) * 4 + 1 * q.val = q.val; omega
  | ⟨1, _⟩ => show win1_1.index t (1 : Fin 2) * 25600 + 1 * j.val = t.val * 25600 + j.val; omega

/-- Point t's block of the bond lengths, read at j. -/
theorem read_length (c : Dev nD) (t : Fin cfg1.N) (j : Fin 25600) :
    iblk1 V c 2 t (ix1 j) = V c main_arg2 (ix1 (edgeOf t j)) := by
  obtain ⟨-, -, -, -, e, -⟩ := idx_facts t
  show V c main_arg2 (((cfg1.win 2).blk t).view.emb (ix1 j)) = _
  refine congrArg (V c main_arg2) (funext fun a => Fin.ext ?_)
  match a with
  | ⟨0, _⟩ => show win1_2.index t (0 : Fin 1) * 25600 + 1 * j.val = t.val * 25600 + j.val; omega

/-- Point t's block of the bond orders, read at j. -/
theorem read_order (c : Dev nD) (t : Fin cfg1.N) (j : Fin 25600) :
    iblk1 V c 3 t (ix1 j) = V c main_arg1 (ix1 (edgeOf t j)) := by
  obtain ⟨-, -, -, -, -, e, -⟩ := idx_facts t
  show V c main_arg1 (((cfg1.win 3).blk t).view.emb (ix1 j)) = _
  refine congrArg (V c main_arg1) (funext fun a => Fin.ext ?_)
  match a with
  | ⟨0, _⟩ => show win1_3.index t (0 : Fin 1) * 25600 + 1 * j.val = t.val * 25600 + j.val; omega

/-- The edge energies as one function of the arrays the region finds. -/
abbrev energies (c : Dev nD) : S3200000.Idx → EReal :=
  BondEnergy.pairArr (V c main_v9) (V c main_v10) (V c main_arg2) (V c main_arg1)

/-- What point t writes back is its stretch of the edge energies. -/
theorem flushed_eq (c : Dev nD) (t : Fin cfg1.N) :
    (dat1 V c).flushed 4 t = ((cfg1.win 4).blk t).view.read (Elt Ideal) (energies V c) := by
  show (cfg1.win 4).cut (grid1.coords t) ((dat1 V c).after 4 t) = _
  rw [after1_4]
  unfold out1_4
  rw [View.canon_unit_zero hz1]
  simp only [View.ld_unit_zero (S := S4x25600) hz2, View.ld_unit_zero (S := S25600) hz1]
  funext y
  obtain ⟨j, rfl⟩ : ∃ j : Fin 25600, y = ix1 j := ⟨y 0, eq_ix1 y⟩
  refine (edge_payload (iblk1 V c 0 t) (iblk1 V c 1 t) (iblk1 V c 2 t) (iblk1 V c 3 t) j).trans ?_
  simp only [read_gathered0, read_gathered1, read_length, read_order]
  obtain ⟨-, -, -, -, -, -, e⟩ := idx_facts t
  show _ = energies V c (((cfg1.win 4).blk t).view.emb (ix1 j))
  have hemb : ((cfg1.win 4).blk t).view.emb (ix1 j) = ix1 (edgeOf t j) := by
    funext a; apply Fin.ext
    match a with
    | ⟨0, _⟩ => show win1_4.index t (0 : Fin 1) * 25600 + 1 * j.val = t.val * 25600 + j.val; omega
  rw [hemb]
  rfl

/-- An edge is in point t's block iff it lies in that stretch. -/
theorem mem_blk (t : Fin cfg1.N) (i : S3200000.Idx) :
    i ∈ ((cfg1.win 4).blk t).view.set ↔ ∀ a : Fin 1, win1_4.index t a * S25600.size a ≤ (i a).val ∧ (i a).val < win1_4.index t a * S25600.size a + S25600.size a := by
  show i ∈ ((View.whole main_v11).slice (win1_4.rect t)).set ↔ _
  rw [View.set_slice_whole, Rect.mem_set_unit]
  exact Iff.rfl

/-- Every edge is in some point's block: the point e / 25600. -/
theorem cover (i : S3200000.Idx) : ∃ t : Fin cfg1.N, (cfg1.win 4).flush t = true ∧ i ∈ ((cfg1.win 4).blk t).view.set := by
  have hi : (i 0).val < 3200000 := (i 0).isLt
  have hN : cfg1.N = 125 := N_1
  refine ⟨⟨(i 0).val / 25600, by omega⟩, flush1_4 _, ?_⟩
  rw [mem_blk]
  intro a
  obtain ⟨-, -, -, -, -, -, e⟩ := idx_facts ⟨(i 0).val / 25600, by omega⟩
  match a with
  | ⟨0, _⟩ =>
    show win1_4.index _ (0 : Fin 1) * 25600 ≤ (i 0).val ∧ (i 0).val < win1_4.index _ (0 : Fin 1) * 25600 + 25600
    rw [e]; show (i 0).val / 25600 * 25600 ≤ (i 0).val ∧ (i 0).val < (i 0).val / 25600 * 25600 + 25600
    omega

/-- The edge-energy array after the region: the pair energy of every edge, from the arrays the region finds. -/
theorem final (c : Dev nD) : (dat1 V c).arrAt 4 cfg1.N = energies V c :=
  (dat1 V c).arrAt_eq_of_cover 4 (energies V c) (fun t _ => flushed_eq V c t) (cover)

end Cert.KernelIdeal.EdgeRegion

end
-- ==== Proof.HostStretches.lean ====
import proofs.«419348_j47425028883061_3_alg».proof.Proof.Gen.KernelIdeal.Frame
import proofs.«419348_j47425028883061_3_alg».proof.Proof.Spec
import proofs.«419348_j47425028883061_3_alg».proof.Proof.HostTakeFirst
import proofs.«419348_j47425028883061_3_alg».proof.Proof.HostTakeSecond
import proofs.«419348_j47425028883061_3_alg».proof.Proof.NodeRegion
import proofs.«419348_j47425028883061_3_alg».proof.Proof.EdgeRegion
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.StableHlo

/-! The contents of the core's buffers at the boundaries between the program's stretches of host operations and its two
    regions, as plain terms of the argument arrays: the eight-column weight and the one-row bias the first region is
    given; the projected table it leaves; the two masked column takes of the table's transposed halves the second region
    is given, beside the bond lengths and orders; the edge energies it leaves; and the accumulated node energies. -/

variable (m : (ℓ : Loc nD τ sig) → Buf (Elt Ideal) ℓ) (ρ : Dev nD → PrngReg)

/-- The eight-column weight: the source weight beside the destination weight. -/
def weight (c : Dev nD) : FVec Ideal S256x8 .f32 :=
  concatenate S256x8 1 [⟨S256x4, m ((c.tc : Thread nD τ).loc main_arg5)⟩, ⟨S256x4, m ((c.tc : Thread nD τ).loc main_arg7)⟩] concatenates_S256x4_S256x4_S256x8_d1

/-- The one-row bias: the source bias, then four zeros. -/
def bias (c : Dev nD) : FVec Ideal S1x8 .f32 :=
  shapeCast S1x8 (concatenate S8 0 [⟨S4, m ((c.tc : Thread nD τ).loc main_arg6)⟩,
    ⟨S4, broadcastInDim S4 ![] bcast_S_S4 (constant (F := Ideal) S_ .f32 0x00000000#32)⟩] concatenates_S4_S4_S8_d0) shapeCasts_S8_S1x8

/-- Columns 0–3 (off = 0) or 4–7 (off = 4) of a table, transposed. -/
def halfT (tbl : FVec Ideal S100000x8 .f32) (off : Fin 2 → Nat) (h : S100000x8.Slices off S100000x4) : FVec Ideal S4x100000 .f32 :=
  transpose S4x100000 [1, 0] (extractStridedSlice S100000x4 off tbl h) transposes_S100000x4_S4x100000_1_0

/-! ## Before the first region -/

theorem at_weight (c : Dev nD) : W1 m ρ c (Proc.devRef .tc main_v0) = weight m c := by
  show StableHlo.after hostOps0 (W0 m ρ c) (Proc.devRef .tc main_v0) = _
  after_results
  rfl

theorem at_bias (c : Dev nD) : W1 m ρ c (Proc.devRef .tc main_v3) = bias m c := by
  show StableHlo.after hostOps0 (W0 m ρ c) (Proc.devRef .tc main_v3) = _
  after_results
  rfl

theorem at_features (c : Dev nD) : W1 m ρ c (Proc.devRef .tc main_arg0) = m ((c.tc : Thread nD τ).loc main_arg0) := by
  show StableHlo.after hostOps0 (W0 m ρ c) (Proc.devRef .tc main_arg0) = _
  unwritten hostOps0

/-! ## After the first region -/

/-- The projected table. -/
theorem at_table (c : Dev nD) :
    W2 m ρ c (Proc.devRef .tc main_v4) = BondEnergy.proj (m ((c.tc : Thread nD τ).loc main_arg0)) (weight m c) (bias m c) := by
  refine (W2_arr m ρ c 3).trans ((NodeRegion.final (V1 m ρ) c).trans ?_)
  show BondEnergy.proj (W1 m ρ c (Proc.devRef .tc main_arg0)) (W1 m ρ c (Proc.devRef .tc main_v0)) (W1 m ρ c (Proc.devRef .tc main_v3)) = _
  rw [at_features, at_weight, at_bias]

theorem at_src_index (c : Dev nD) : W2 m ρ c (Proc.devRef .tc main_arg3) = m ((c.tc : Thread nD τ).loc main_arg3) := by
  refine (W2_of_ne m ρ c main_arg3 (by decide)).trans ?_
  show StableHlo.after hostOps0 (W0 m ρ c) (Proc.devRef .tc main_arg3) = _
  unwritten hostOps0

theorem at_dst_index (c : Dev nD) : W2 m ρ c (Proc.devRef .tc main_arg4) = m ((c.tc : Thread nD τ).loc main_arg4) := by
  refine (W2_of_ne m ρ c main_arg4 (by decide)).trans ?_
  show StableHlo.after hostOps0 (W0 m ρ c) (Proc.devRef .tc main_arg4) = _
  unwritten hostOps0

theorem at_length2 (c : Dev nD) : W2 m ρ c (Proc.devRef .tc main_arg2) = m ((c.tc : Thread nD τ).loc main_arg2) := by
  refine (W2_of_ne m ρ c main_arg2 (by decide)).trans ?_
  show StableHlo.after hostOps0 (W0 m ρ c) (Proc.devRef .tc main_arg2) = _
  unwritten hostOps0

theorem at_order2 (c : Dev nD) : W2 m ρ c (Proc.devRef .tc main_arg1) = m ((c.tc : Thread nD τ).loc main_arg1) := by
  refine (W2_of_ne m ρ c main_arg1 (by decide)).trans ?_
  show StableHlo.after hostOps0 (W0 m ρ c) (Proc.devRef .tc main_arg1) = _
  unwritten hostOps0

/-! ## Before the second region -/

/-- The transposed first half of the table, as the takes' stretch finds it. -/
theorem at_half_src (c : Dev nD) :
    W3 m ρ c (Proc.devRef .tc main_v7) = halfT (W2 m ρ c (Proc.devRef .tc main_v4)) ![0, 0] slices_S100000x8_S100000x4_0_0 := by
  show StableHlo.after hostOps1 (W2 m ρ c) (Proc.devRef .tc main_v7) = _
  generalize W2 m ρ c = w
  after_results
  rfl

/-- The transposed second half. -/
theorem at_half_dst (c : Dev nD) :
    W3 m ρ c (Proc.devRef .tc main_v8) = halfT (W2 m ρ c (Proc.devRef .tc main_v4)) ![0, 4] slices_S100000x8_S100000x4_0_4 := by
  show StableHlo.after hostOps1 (W2 m ρ c) (Proc.devRef .tc main_v8) = _
  generalize W2 m ρ c = w
  after_results
  rfl

/-- The first take's stretch: the masked column take of the first half at the source indices. -/
theorem at_take_src (c : Dev nD) :
    W4 m ρ c (Proc.devRef .tc main_v9) = takeCols (W3 m ρ c (Proc.devRef .tc main_v7)) (W3 m ρ c (Proc.devRef .tc main_arg3)) :=
  take0 (W3 m ρ c)

/-- The second take's stretch: the masked column take of the second half at the destination indices. -/
theorem at_take_dst (c : Dev nD) :
    W5 m ρ c (Proc.devRef .tc main_v10) = takeCols (W4 m ρ c (Proc.devRef .tc main_v8)) (W4 m ρ c (Proc.devRef .tc main_arg4)) :=
  take1 (W4 m ρ c)

/-- The source gather: the masked column take of the table's first four columns, transposed, at the source indices. -/
theorem at_gathered_src (c : Dev nD) :
    W5 m ρ c (Proc.devRef .tc main_v9)
      = takeCols (halfT (W2 m ρ c (Proc.devRef .tc main_v4)) ![0, 0] slices_S100000x8_S100000x4_0_0) (W2 m ρ c (Proc.devRef .tc main_arg3)) := by
  have h54 : W5 m ρ c (Proc.devRef .tc main_v9) = W4 m ρ c (Proc.devRef .tc main_v9) := by unwritten hostOps1_2
  have h32 : W3 m ρ c (Proc.devRef .tc main_arg3) = W2 m ρ c (Proc.devRef .tc main_arg3) := by unwritten hostOps1
  rw [h54, at_take_src, at_half_src, h32]

/-- The destination gather: the same of the last four columns at the destination indices. -/
theorem at_gathered_dst (c : Dev nD) :
    W5 m ρ c (Proc.devRef .tc main_v10)
      = takeCols (halfT (W2 m ρ c (Proc.devRef .tc main_v4)) ![0, 4] slices_S100000x8_S100000x4_0_4) (W2 m ρ c (Proc.devRef .tc main_arg4)) := by
  have h43 : W4 m ρ c (Proc.devRef .tc main_v8) = W3 m ρ c (Proc.devRef .tc main_v8) := by unwritten hostOps1_1
  have h43' : W4 m ρ c (Proc.devRef .tc main_arg4) = W3 m ρ c (Proc.devRef .tc main_arg4) := by unwritten hostOps1_1
  have h32 : W3 m ρ c (Proc.devRef .tc main_arg4) = W2 m ρ c (Proc.devRef .tc main_arg4) := by unwritten hostOps1
  rw [at_take_dst, h43, h43', at_half_dst, h32]

theorem at_length (c : Dev nD) : W5 m ρ c (Proc.devRef .tc main_arg2) = m ((c.tc : Thread nD τ).loc main_arg2) :=
  calc W5 m ρ c (Proc.devRef .tc main_arg2)
    _ = W4 m ρ c (Proc.devRef .tc main_arg2) := by unwritten hostOps1_2
    _ = W3 m ρ c (Proc.devRef .tc main_arg2) := by unwritten hostOps1_1
    _ = W2 m ρ c (Proc.devRef .tc main_arg2) := by unwritten hostOps1
    _ = _ := at_length2 m ρ c

theorem at_order (c : Dev nD) : W5 m ρ c (Proc.devRef .tc main_arg1) = m ((c.tc : Thread nD τ).loc main_arg1) :=
  calc W5 m ρ c (Proc.devRef .tc main_arg1)
    _ = W4 m ρ c (Proc.devRef .tc main_arg1) := by unwritten hostOps1_2
    _ = W3 m ρ c (Proc.devRef .tc main_arg1) := by unwritten hostOps1_1
    _ = W2 m ρ c (Proc.devRef .tc main_arg1) := by unwritten hostOps1
    _ = _ := at_order2 m ρ c

theorem at_dst_index5 (c : Dev nD) : W5 m ρ c (Proc.devRef .tc main_arg4) = m ((c.tc : Thread nD τ).loc main_arg4) :=
  calc W5 m ρ c (Proc.devRef .tc main_arg4)
    _ = W4 m ρ c (Proc.devRef .tc main_arg4) := by unwritten hostOps1_2
    _ = W3 m ρ c (Proc.devRef .tc main_arg4) := by unwritten hostOps1_1
    _ = W2 m ρ c (Proc.devRef .tc main_arg4) := by unwritten hostOps1
    _ = _ := at_dst_index m ρ c

/-! ## After the second region -/

/-- The edge energies. -/
theorem at_energy (c : Dev nD) :
    W6 m ρ c (Proc.devRef .tc main_v11)
      = BondEnergy.pairArr (W5 m ρ c (Proc.devRef .tc main_v9)) (W5 m ρ c (Proc.devRef .tc main_v10))
          (W5 m ρ c (Proc.devRef .tc main_arg2)) (W5 m ρ c (Proc.devRef .tc main_arg1)) :=
  (W6_arr m ρ c 4).trans (EdgeRegion.final (V5 m ρ) c)

theorem at_dst_index6 (c : Dev nD) : W6 m ρ c (Proc.devRef .tc main_arg4) = m ((c.tc : Thread nD τ).loc main_arg4) :=
  (W6_of_ne m ρ c main_arg4 (by decide)).trans (at_dst_index5 m ρ c)

/-- The result: the edge energies accumulated at the destination indices, from zero. -/
theorem at_result (c : Dev nD) :
    W7 m ρ c (Proc.devRef .tc main_v14) = Host.scatterAdd scatter_S100000_S3200000x1_S3200000_n_0_0_1
      (broadcastInDim S100000 ![] bcast_S_S100000 (constant (F := Ideal) S_ .f32 0x00000000#32))
      (broadcastInDim S3200000x1 ![0] bcast_S3200000_S3200000x1_0 (W6 m ρ c (Proc.devRef .tc main_arg4)))
      (W6 m ρ c (Proc.devRef .tc main_v11)) := by
  show StableHlo.after hostOps2 (W6 m ρ c) (Proc.devRef .tc main_v14) = _
  after_results

end Cert.KernelIdeal.HostSide

end
-- ==== Proof.Rows.lean ====
/-
  The edge energy as a function of the eight argument arrays.

  Node n's source 4-vector is row n of  X·W_src + b  and its destination 4-vector row n of  X·W_dst.  Edge e reads the
  source vector of the node its source index names and the destination vector of the node its destination index
  names, each index wrapped as Python wraps it and clamped as a gather clamps it.
-/
import proofs.«419348_j47425028883061_3_alg».proof.Proof.Spec

noncomputable section

namespace BondEnergy

open Idealize.ShloMosaic Idealize.ShloMosaic.ValueIdx

/-- Entry q of node n's source 4-vector. -/
def srcRow (X : (⟨2, ![100000, 256]⟩ : Shape).Idx → EReal) (W : (⟨2, ![256, 4]⟩ : Shape).Idx → EReal)
    (B : (⟨1, ![4]⟩ : Shape).Idx → EReal) (n : Fin 100000) (q : Fin 4) : EReal :=
  (∑ k : Fin 256, X (ix2 n k) * W (ix2 k q)) + B (ix1 q)

/-- Entry q of node n's destination 4-vector. -/
def dstRow (X : (⟨2, ![100000, 256]⟩ : Shape).Idx → EReal) (W : (⟨2, ![256, 4]⟩ : Shape).Idx → EReal)
    (n : Fin 100000) (q : Fin 4) : EReal :=
  ∑ k : Fin 256, X (ix2 n k) * W (ix2 k q)

/-- The pair energy of edge e from the argument arrays. -/
def edgeEnergy (X : (⟨2, ![100000, 256]⟩ : Shape).Idx → EReal) (BO BL : (⟨1, ![3200000]⟩ : Shape).Idx → EReal)
    (src dst : (⟨1, ![3200000]⟩ : Shape).Idx → BitVec 32) (Wsrc : (⟨2, ![256, 4]⟩ : Shape).Idx → EReal)
    (B : (⟨1, ![4]⟩ : Shape).Idx → EReal) (Wdst : (⟨2, ![256, 4]⟩ : Shape).Idx → EReal) (e : Fin 3200000) : EReal :=
  pair (fun q => srcRow X Wsrc B (row (wrap (src (ix1 e)))) q) (fun q => dstRow X Wdst (row (wrap (dst (ix1 e)))) q)
    (BL (ix1 e)) (BO (ix1 e))

end BondEnergy

end
-- ==== Proof.HostRows.lean ====
import proofs.«419348_j47425028883061_3_alg».proof.Proof.Gen.KernelIdeal.Frame
import proofs.«419348_j47425028883061_3_alg».proof.Proof.Spec
import proofs.«419348_j47425028883061_3_alg».proof.Proof.HostStretches
import proofs.«419348_j47425028883061_3_alg».proof.Proof.Rows
import Idealize.ShloMosaic.Lib.Pipeline.Value
import Idealize.ShloMosaic.Lib.ValueIdx
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! What the second region is given, read at an edge: where an edge's wrapped index is inside the node axis, the
    gathered array holds, in row q, entry q of that node's projected 4-vector — column q of the table for the source
    take, column q + 4 for the destination take; and those columns of  X·[W_src | W_dst] + [b | 0]  are the source
    row  X·W_src + b  and the destination row  X·W_dst. -/

variable (m : (ℓ : Loc nD τ sig) → Buf (Elt Ideal) ℓ) (ρ : Dev nD → PrngReg)

/-- Column q of the table, by its place among the eight. -/
abbrev colS (q : Fin 4) : Fin 8 := ⟨q.val, by have := q.isLt; omega⟩
/-- Column q + 4 of the table. -/
abbrev colD (q : Fin 4) : Fin 8 := ⟨q.val + 4, by have := q.isLt; omega⟩

/-- The transposed first half of a table at (q, n) is the table at (n, q). -/
theorem half_src_apply (tbl : FVec Ideal S100000x8 .f32) (q : Fin 4) (n : Fin 100000) :
    halfT tbl ![0, 0] slices_S100000x8_S100000x4_0_0 (ix2 q n) = tbl (ix2 n (colS q)) := by
  unfold halfT
  rw [transpose_apply [1, 0] _ transposes_S100000x4_S4x100000_1_0 (ix2 q n) (ix2 n q) (fun b => match b with
    | ⟨0, _⟩ => rfl
    | ⟨1, _⟩ => rfl)]
  exact extractStridedSlice_apply ![0, 0] tbl slices_S100000x8_S100000x4_0_0 (ix2 n q) (ix2 n (colS q)) (fun a => match a with
    | ⟨0, _⟩ => by show n.val = 0 + n.val; omega
    | ⟨1, _⟩ => by show q.val = 0 + q.val; omega)

/-- The transposed second half of a table at (q, n) is the table at (n, q + 4). -/
theorem half_dst_apply (tbl : FVec Ideal S100000x8 .f32) (q : Fin 4) (n : Fin 100000) :
    halfT tbl ![0, 4] slices_S100000x8_S100000x4_0_4 (ix2 q n) = tbl (ix2 n (colD q)) := by
  unfold halfT
  rw [transpose_apply [1, 0] _ transposes_S100000x4_S4x100000_1_0 (ix2 q n) (ix2 n q) (fun b => match b with
    | ⟨0, _⟩ => rfl
    | ⟨1, _⟩ => rfl)]
  exact extractStridedSlice_apply ![0, 4] tbl slices_S100000x8_S100000x4_0_4 (ix2 n q) (ix2 n (colD q)) (fun a => match a with
    | ⟨0, _⟩ => by show n.val = 0 + n.val; omega
    | ⟨1, _⟩ => by show q.val + 4 = 4 + q.val; omega)

/-- The first four columns of the weight are the source weight … -/
theorem weight_src (c : Dev nD) (k : Fin 256) (q : Fin 4) :
    weight m c (ix2 k (colS q)) = m ((c.tc : Thread nD τ).loc main_arg5) (ix2 k q) := by
  unfold weight
  exact concatenate_pair_apply_left 1 _ _ concatenates_S256x4_S256x4_S256x8_d1 (ix2 k (colS q)) rfl (ix2 k q) (fun b => match b with
    | ⟨0, _⟩ => rfl
    | ⟨1, _⟩ => rfl)

/-- … and the last four the destination weight. -/
theorem weight_dst (c : Dev nD) (k : Fin 256) (q : Fin 4) :
    weight m c (ix2 k (colD q)) = m ((c.tc : Thread nD τ).loc main_arg7) (ix2 k q) := by
  unfold weight
  exact concatenate_pair_apply_right 1 _ _ concatenates_S256x4_S256x4_S256x8_d1 (ix2 k (colD q)) rfl rfl (ix2 k q)
    (fun b hb => match b with
      | ⟨0, _⟩ => rfl
      | ⟨1, _⟩ => absurd rfl hb)
    (by show q.val + 4 = q.val + 4; rfl)

/-- The first four entries of the bias are the source bias … -/
theorem bias_src (c : Dev nD) (q : Fin 4) : bias m c (ix2 (0 : Fin 1) (colS q)) = m ((c.tc : Thread nD τ).loc main_arg6) (ix1 q) := by
  unfold bias
  rw [shapeCast_apply _ shapeCasts_S8_S1x8 (ix2 (0 : Fin 1) (colS q)) (ix1 (colS q))
    (by rw [Shape.rowMajor_val_one, Shape.rowMajor_val_two]; show q.val = 0 * 8 + q.val; omega)]
  exact concatenate_pair_apply_left 0 _ _ concatenates_S4_S4_S8_d0 (ix1 (colS q)) rfl (ix1 q) (fun b => match b with
    | ⟨0, _⟩ => rfl)

/-- … and the last four are zero. -/
theorem bias_dst (c : Dev nD) (q : Fin 4) : bias m c (ix2 (0 : Fin 1) (colD q)) = 0 := by
  unfold bias
  rw [shapeCast_apply _ shapeCasts_S8_S1x8 (ix2 (0 : Fin 1) (colD q)) (ix1 (colD q))
    (by rw [Shape.rowMajor_val_one, Shape.rowMajor_val_two]; show q.val + 4 = 0 * 8 + (q.val + 4); omega)]
  rw [concatenate_pair_apply_right 0 _ _ concatenates_S4_S4_S8_d0 (ix1 (colD q)) rfl rfl (ix1 q)
    (fun b hb => match b with
      | ⟨0, _⟩ => absurd rfl hb)
    (by show q.val + 4 = q.val + 4; rfl)]
  rw [broadcastInDim_apply _ bcast_S_S4 _ (ix1 q) ix0 (fun a => a.elim0)]
  exact Ideal.ofBits_zero_f32

/-- Column q of the projected table is the source row. -/
theorem table_src (c : Dev nD) (X : (⟨2, ![100000, 256]⟩ : Shape).Idx → EReal) (n : Fin 100000) (q : Fin 4) :
    BondEnergy.proj X (weight m c) (bias m c) (ix2 n (colS q))
      = BondEnergy.srcRow X (m ((c.tc : Thread nD τ).loc main_arg5)) (m ((c.tc : Thread nD τ).loc main_arg6)) n q := by
  unfold BondEnergy.proj BondEnergy.srcRow
  show (∑ k : Fin 256, X (ix2 n k) * weight m c (ix2 k (colS q))) + bias m c (ix2 (0 : Fin 1) (colS q)) = _
  simp only [weight_src, bias_src]

/-- Column q + 4 of the projected table is the destination row: its bias is zero. -/
theorem table_dst (c : Dev nD) (X : (⟨2, ![100000, 256]⟩ : Shape).Idx → EReal) (n : Fin 100000) (q : Fin 4) :
    BondEnergy.proj X (weight m c) (bias m c) (ix2 n (colD q))
      = BondEnergy.dstRow X (m ((c.tc : Thread nD τ).loc main_arg7)) n q := by
  unfold BondEnergy.proj BondEnergy.dstRow
  show (∑ k : Fin 256, X (ix2 n k) * weight m c (ix2 k (colD q))) + bias m c (ix2 (0 : Fin 1) (colD q)) = _
  simp only [weight_dst, bias_dst, add_zero]

/-- The source take at edge e, where e's wrapped source index is inside the axis. -/
theorem gathered_src_apply (c : Dev nD) (q : Fin 4) (e : Fin 3200000)
    (h : 0 ≤ (BondEnergy.wrap (m ((c.tc : Thread nD τ).loc main_arg3) (ix1 e))).toInt ∧ (BondEnergy.wrap (m ((c.tc : Thread nD τ).loc main_arg3) (ix1 e))).toInt < 100000) :
    (W5 m ρ c (Proc.devRef .tc main_v9) : S4x3200000.Idx → EReal) (ix2 q e)
      = BondEnergy.srcRow (m ((c.tc : Thread nD τ).loc main_arg0)) (m ((c.tc : Thread nD τ).loc main_arg5)) (m ((c.tc : Thread nD τ).loc main_arg6))
          (BondEnergy.row (BondEnergy.wrap (m ((c.tc : Thread nD τ).loc main_arg3) (ix1 e)))) q := by
  rw [at_gathered_src, at_src_index, at_table, takeCols_apply _ _ q e h, half_src_apply, table_src]

/-- The destination take at edge e, where e's wrapped destination index is inside the axis. -/
theorem gathered_dst_apply (c : Dev nD) (q : Fin 4) (e : Fin 3200000)
    (h : 0 ≤ (BondEnergy.wrap (m ((c.tc : Thread nD τ).loc main_arg4) (ix1 e))).toInt ∧ (BondEnergy.wrap (m ((c.tc : Thread nD τ).loc main_arg4) (ix1 e))).toInt < 100000) :
    (W5 m ρ c (Proc.devRef .tc main_v10) : S4x3200000.Idx → EReal) (ix2 q e)
      = BondEnergy.dstRow (m ((c.tc : Thread nD τ).loc main_arg0)) (m ((c.tc : Thread nD τ).loc main_arg7))
          (BondEnergy.row (BondEnergy.wrap (m ((c.tc : Thread nD τ).loc main_arg4) (ix1 e)))) q := by
  rw [at_gathered_dst, at_dst_index, at_table, takeCols_apply _ _ q e h, half_dst_apply, table_dst]

/-- The edge energy the second region leaves at edge e, where both of e's wrapped indices are inside the axis. -/
theorem energy_apply (c : Dev nD) (e : Fin 3200000)
    (hs : 0 ≤ (BondEnergy.wrap (m ((c.tc : Thread nD τ).loc main_arg3) (ix1 e))).toInt ∧ (BondEnergy.wrap (m ((c.tc : Thread nD τ).loc main_arg3) (ix1 e))).toInt < 100000)
    (hd : 0 ≤ (BondEnergy.wrap (m ((c.tc : Thread nD τ).loc main_arg4) (ix1 e))).toInt ∧ (BondEnergy.wrap (m ((c.tc : Thread nD τ).loc main_arg4) (ix1 e))).toInt < 100000) :
    (W6 m ρ c (Proc.devRef .tc main_v11) : S3200000.Idx → EReal) (ix1 e)
      = BondEnergy.edgeEnergy (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) e := by
  rw [at_energy]
  unfold BondEnergy.pairArr BondEnergy.edgeEnergy
  have h1 : (fun q : Fin 4 => (W5 m ρ c (Proc.devRef .tc main_v9) : S4x3200000.Idx → EReal) (ix2 q e))
      = fun q => BondEnergy.srcRow (m ((c.tc : Thread nD τ).loc main_arg0)) (m ((c.tc : Thread nD τ).loc main_arg5)) (m ((c.tc : Thread nD τ).loc main_arg6))
          (BondEnergy.row (BondEnergy.wrap (m ((c.tc : Thread nD τ).loc main_arg3) (ix1 e)))) q :=
    funext fun q => gathered_src_apply m ρ c q e hs
  have h2 : (fun q : Fin 4 => (W5 m ρ c (Proc.devRef .tc main_v10) : S4x3200000.Idx → EReal) (ix2 q e))
      = fun q => BondEnergy.dstRow (m ((c.tc : Thread nD τ).loc main_arg0)) (m ((c.tc : Thread nD τ).loc main_arg7))
          (BondEnergy.row (BondEnergy.wrap (m ((c.tc : Thread nD τ).loc main_arg4) (ix1 e)))) q :=
    funext fun q => gathered_dst_apply m ρ c q e hd
  show BondEnergy.pair (fun q : Fin 4 => (W5 m ρ c (Proc.devRef .tc main_v9) : S4x3200000.Idx → EReal) (ix2 q e))
      (fun q : Fin 4 => (W5 m ρ c (Proc.devRef .tc main_v10) : S4x3200000.Idx → EReal) (ix2 q e))
      ((W5 m ρ c (Proc.devRef .tc main_arg2) : S3200000.Idx → EReal) (ix1 e))
      ((W5 m ρ c (Proc.devRef .tc main_arg1) : S3200000.Idx → EReal) (ix1 e)) = _
  rw [h1, h2, at_length, at_order]

end Cert.KernelIdeal.HostSide

end
-- ==== Proof.RefValue.lean ====
import proofs.«419348_j47425028883061_3_alg».proof.Proof.Gen.ReferenceIdeal.Read
import proofs.«419348_j47425028883061_3_alg».proof.Proof.Spec
import proofs.«419348_j47425028883061_3_alg».proof.Proof.Rows
import proofs.«419348_j47425028883061_3_alg».proof.Proof.LibTakeScatter
import proofs.«419348_j47425028883061_3_alg».proof.Proof.IndexRange
import Idealize.ShloMosaic.Lib.Pipeline.Value
import Idealize.ShloMosaic.Lib.ValueIdx
import Idealize.ShloMosaic.PureOps.Ideal.Laws

set_option maxRecDepth 16384

noncomputable section

namespace Cert.ReferenceIdeal.EdgeValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x256, .f32⟩ : BufTy).Contents (Elt Ideal)) (x1 x2 : (⟨S3200000, .f32⟩ : BufTy).Contents (Elt Ideal))
  (x3 x4 : (⟨S3200000, .i32⟩ : BufTy).Contents (Elt Ideal)) (x5 : (⟨S256x4, .f32⟩ : BufTy).Contents (Elt Ideal))
  (x6 : (⟨S4, .f32⟩ : BufTy).Contents (Elt Ideal)) (x7 : (⟨S256x4, .f32⟩ : BufTy).Contents (Elt Ideal))

/-! The reference, edge by edge: the array its final scatter accumulates holds, at edge e, the pair energy of e read
    from the argument arrays; its two gathers read the projected rows at the wrapped, clamped indices. -/

/-! ## The coordinates the slices and reshapes read -/

theorem col0 (e : Fin 3200000) : idx_main_v21 (idx_main_v22 (ix1 e)) = ix2 e (0 : Fin 4) :=
  funext fun a => Fin.ext (by match a with | ⟨0, _⟩ => exact Nat.div_one _ | ⟨1, _⟩ => rfl)
theorem col1 (e : Fin 3200000) : idx_main_v23 (idx_main_v24 (ix1 e)) = ix2 e (1 : Fin 4) :=
  funext fun a => Fin.ext (by match a with | ⟨0, _⟩ => exact Nat.div_one _ | ⟨1, _⟩ => rfl)
theorem col2 (e : Fin 3200000) : idx_main_v29 (idx_main_v30 (ix1 e)) = ix2 e (2 : Fin 4) :=
  funext fun a => Fin.ext (by match a with | ⟨0, _⟩ => exact Nat.div_one _ | ⟨1, _⟩ => rfl)
theorem col3 (e : Fin 3200000) : idx_main_v31 (idx_main_v32 (ix1 e)) = ix2 e (3 : Fin 4) :=
  funext fun a => Fin.ext (by match a with | ⟨0, _⟩ => exact Nat.div_one _ | ⟨1, _⟩ => rfl)

/-- The update of edge e is the pair energy of the two gathered rows, the bond length and the bond order. -/
theorem update_apply (e : Fin 3200000) :
    val_main_v56 (F := Ideal) x0 x1 x2 x3 x4 x5 x6 x7 (ix1 e)
      = BondEnergy.pair (fun q => val_main_v11 (F := Ideal) x0 x3 x5 x6 (ix2 e q)) (fun q => val_main_v18 (F := Ideal) x0 x4 x7 (ix2 e q))
          (x2 (ix1 e)) (x1 (ix1 e)) := by
  simp only [val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_cst_apply, val_main_v37_apply, val_main_v38_apply, val_main_cst_3_apply, val_main_v39_apply, val_main_v40_apply, val_main_cst_4_apply, val_main_v41_apply, val_main_v42_apply, val_main_cst_5_apply, val_main_v43_apply, val_main_v44_apply, val_main_v45_apply, val_main_cst_6_apply, val_main_v46_apply, val_main_v47_apply, val_main_cst_7_apply, val_main_v48_apply, val_main_v49_apply, val_main_cst_8_apply, val_main_call0_v0_apply, val_main_call0_v1_apply, val_main_v50_apply, val_main_cst_9_apply, val_main_v51_apply, val_main_v52_apply, val_main_cst_10_apply, val_main_call1_v0_apply, val_main_call1_v1_apply, val_main_v53_apply, val_main_v54_apply, val_main_v55_apply, val_main_v56_apply]
  rw [col0, col1, col2, col3]
  unfold BondEnergy.pair BondEnergy.cut
  simp only [Ideal.ofBits_def, Ideal.addf_def, Ideal.subf_def, Ideal.mulf_def, Ideal.hostDivf_def, Ideal.hostUnary_exp_def,
    Ideal.hostUnary_sin_def, Ideal.hostNegf_def, Ideal.negf_def, Ideal.ofBits_zero_f32, zero_sub]
  rfl

/-! ## The two gathers -/

/-- The start index of edge e in the first gather is the wrap of its source index. -/
theorem src_start (e : Fin 3200000) : val_main_v10 (F := Ideal) x3 (ix2 e (0 : Fin 1)) = BondEnergy.wrap (x3 (ix1 e)) := by
  have hi : idx_main_v10 (ix2 e (0 : Fin 1)) = ix1 e := funext fun a => Fin.ext (by match a with | ⟨0, _⟩ => rfl)
  rw [val_main_v10_apply, val_main_v9_apply, val_main_v6_apply, val_main_v8_apply, val_main_v5_apply, val_main_v7_apply,
    val_main_c_apply, val_main_c_0_apply, hi]
  rfl

/-- The start index of edge e in the second gather is the wrap of its destination index. -/
theorem dst_start (e : Fin 3200000) : val_main_v17 (F := Ideal) x4 (ix2 e (0 : Fin 1)) = BondEnergy.wrap (x4 (ix1 e)) := by
  have hi : idx_main_v17 (ix2 e (0 : Fin 1)) = ix1 e := funext fun a => Fin.ext (by match a with | ⟨0, _⟩ => rfl)
  rw [val_main_v17_apply, val_main_v16_apply, val_main_v13_apply, val_main_v15_apply, val_main_v12_apply, val_main_v14_apply,
    val_main_c_1_apply, val_main_c_2_apply, hi]
  rfl

/-- The first gather reads the source table's row at the wrapped, clamped source index. -/
theorem src_gather (e : Fin 3200000) (q : Fin 4) :
    val_main_v11 (F := Ideal) x0 x3 x5 x6 (ix2 e q)
      = val_main_v3 (F := Ideal) x0 x5 x6 (ix2 (BondEnergy.row (BondEnergy.wrap (x3 (ix1 e)))) q) := by
  unfold val_main_v11
  show Host.gather (TakeScatter.rowDims 100000 4 3200000 gather_S100000x4_S3200000x1_S3200000x4_1_0_n_n_0_1_14_wf)
    (val_main_v3 (F := Ideal) x0 x5 x6) (val_main_v10 (F := Ideal) x3) (ix2 e q) = _
  rw [TakeScatter.row_apply (by decide)]
  refine congrArg (fun n => val_main_v3 (F := Ideal) x0 x5 x6 (ix2 n q)) (Fin.ext ?_)
  show min (val_main_v10 (F := Ideal) x3 (ix2 e (0 : Fin 1))).toInt.toNat (100000 - 1) = min (BondEnergy.wrap (x3 (ix1 e))).toInt.toNat 99999
  rw [src_start]

/-- The second gather reads the destination table's row at the wrapped, clamped destination index. -/
theorem dst_gather (e : Fin 3200000) (q : Fin 4) :
    val_main_v18 (F := Ideal) x0 x4 x7 (ix2 e q)
      = val_main_v4 (F := Ideal) x0 x7 (ix2 (BondEnergy.row (BondEnergy.wrap (x4 (ix1 e)))) q) := by
  unfold val_main_v18
  show Host.gather (TakeScatter.rowDims 100000 4 3200000 gather_S100000x4_S3200000x1_S3200000x4_1_0_n_n_0_1_14_wf)
    (val_main_v4 (F := Ideal) x0 x7) (val_main_v17 (F := Ideal) x4) (ix2 e q) = _
  rw [TakeScatter.row_apply (by decide)]
  refine congrArg (fun n => val_main_v4 (F := Ideal) x0 x7 (ix2 n q)) (Fin.ext ?_)
  show min (val_main_v17 (F := Ideal) x4 (ix2 e (0 : Fin 1))).toInt.toNat (100000 - 1) = min (BondEnergy.wrap (x4 (ix1 e))).toInt.toNat 99999
  rw [dst_start]

/-! ## The two projected tables -/

/-- Entry (n, q) of the source table. -/
theorem src_row (n : Fin 100000) (q : Fin 4) :
    val_main_v3 (F := Ideal) x0 x5 x6 (ix2 n q) = BondEnergy.srcRow x0 x5 x6 n q := by
  have hl : ∀ k, lidx_main_v0 (ix2 n q) k = ix2 n k := fun k => funext fun a => Fin.ext (by match a with | ⟨0, _⟩ => rfl | ⟨1, _⟩ => rfl)
  have hr : ∀ k, ridx_main_v0 (ix2 n q) k = ix2 k q := fun k => funext fun a => Fin.ext (by match a with | ⟨0, _⟩ => rfl | ⟨1, _⟩ => rfl)
  have hb : idx_main_v1 (idx_main_v2 (ix2 n q)) = ix1 q := funext fun a => Fin.ext (by match a with | ⟨0, _⟩ => rfl)
  rw [val_main_v3_apply, val_main_v0_apply, val_main_v2_apply, val_main_v1_apply, hb]
  simp only [hl, hr]
  rfl

/-- Entry (n, q) of the destination table. -/
theorem dst_row (n : Fin 100000) (q : Fin 4) :
    val_main_v4 (F := Ideal) x0 x7 (ix2 n q) = BondEnergy.dstRow x0 x7 n q := by
  have hl : ∀ k, lidx_main_v4 (ix2 n q) k = ix2 n k := fun k => funext fun a => Fin.ext (by match a with | ⟨0, _⟩ => rfl | ⟨1, _⟩ => rfl)
  have hr : ∀ k, ridx_main_v4 (ix2 n q) k = ix2 k q := fun k => funext fun a => Fin.ext (by match a with | ⟨0, _⟩ => rfl | ⟨1, _⟩ => rfl)
  rw [val_main_v4_apply]
  simp only [hl, hr]
  rfl

/-- The update of edge e is its pair energy read from the argument arrays. -/
theorem update_eq (e : Fin 3200000) :
    val_main_v56 (F := Ideal) x0 x1 x2 x3 x4 x5 x6 x7 (ix1 e) = BondEnergy.edgeEnergy x0 x1 x2 x3 x4 x5 x6 x7 e := by
  rw [update_apply]
  unfold BondEnergy.edgeEnergy
  simp only [src_gather, dst_gather, src_row, dst_row]

end Cert.ReferenceIdeal.EdgeValue

end
-- ==== Proof.PreRange.lean ====
/-
  The precondition, read back: where the printed predicate is all ones, every source index, read as a signed 32-bit
  integer, lies in [−100000, 100000): the last conjunct of the predicate is the and-reduction, over all edges, of
  "the index is at least −100000 and less than 100000".
-/
import proofs.«419348_j47425028883061_3_alg».proof.Pre_finite_inputs
import proofs.«419348_j47425028883061_3_alg».proof.Proof.Gen.Pre_finite_inputs
import Idealize.ShloMosaic.PureOps.Ideal
import Idealize.ShloMosaic.Lib.ReduceAll
import Idealize.ShloMosaic.Lib.Pipeline.Value
import Idealize.ShloMosaic.Lib.ValueIdx

set_option maxRecDepth 16384

noncomputable section

namespace Cert.Pre_finite_inputs.ReadBack

open Cert.Pre_finite_inputs Cert.Pre_finite_inputs.Gen
open Idealize.ShloMosaic Idealize.ShloMosaic.ValueIdx

instance : Subsingleton S_.Idx := ⟨fun a b => funext fun d => d.elim0⟩

/-- Every source index is a valid Python index into the node axis. -/
theorem src_range (a0 : FVec Ideal S100000x256 .f32) (a1 a2 : FVec Ideal S3200000 .f32) (a3 a4 : IVec S3200000 32)
    (a5 : FVec Ideal S256x4 .f32) (a6 : FVec Ideal S4 .f32) (a7 : FVec Ideal S256x4 .f32)
    (h : fn (F := Ideal) a0 a1 a2 a3 a4 a5 a6 a7 = fun _ => 1#1) (e : Fin 3200000) :
    -100000 ≤ (a3 (ix1 e)).toInt ∧ (a3 (ix1 e)).toInt < 100000 := by
  have h0 := congrFun h ix0
  dsimp only [fn, fn_part1, fn_part2] at h0
  have h1 := (IntOp.andi_eq_one.1 h0).2
  have h2 := Host.reduce_andi_all _ _ _ _ ix0 h1 (ix1 e)
  obtain ⟨hge, hlt⟩ := IntOp.andi_eq_one.1 h2
  have hge' := IntOp.cmpi_sge.1 hge
  have hlt' := IntOp.cmpi_slt.1 hlt
  rw [broadcastInDim_apply _ bcast_S_S3200000 _ (ix1 e) ix0 (fun a => a.elim0)] at hge' hlt'
  have c1 : (constantI S_ 32 4294867296#32 ix0).toInt = -100000 := by decide
  have c2 : (constantI S_ 32 100000#32 ix0).toInt = 100000 := by decide
  rw [c1] at hge'
  rw [c2] at hlt'
  exact ⟨hge', hlt'⟩

end Cert.Pre_finite_inputs.ReadBack

end
-- ==== Proof.SameResult.lean ====
/-
  The two programs compute one array.  Both end in the same accumulation: node energies from zero, the edge energies
  added at the destination indices, an edge whose destination index is outside the node axis dropped.  So the two
  results agree as soon as the two edge-energy arrays agree at every edge that lands.  An edge lands only when its
  destination index is inside the axis; its source index is a valid Python index by the precondition; so both of its
  wrapped indices are inside the axis, the kernel's masked takes read the projected rows there, and both programs'
  edge energy is the pair energy of that edge read from the argument arrays.
-/
import proofs.«419348_j47425028883061_3_alg».proof.Defs
import proofs.«419348_j47425028883061_3_alg».proof.Proof.HostRows
import proofs.«419348_j47425028883061_3_alg».proof.Proof.RefValue
import proofs.«419348_j47425028883061_3_alg».proof.Proof.PreRange
import proofs.«419348_j47425028883061_3_alg».proof.Proof.Gen.ReferenceIdeal.Run
import proofs.«419348_j47425028883061_3_alg».proof.Proof.Gen.ReferenceIdeal.Read

set_option maxRecDepth 16384

noncomputable section

namespace Cert.Proof.SameResult

open Idealize.ShloMosaic Idealize.ShloMosaic.TcCoe Idealize.ShloMosaic.ValueIdx Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

/-- The reference's result term is what the kernel program's last stretch leaves in its result buffer. -/
theorem result_eq (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (c : Dev Cert.KernelIdeal.nD) :
    Cert.ReferenceIdeal.Value.res_main_v59 m' c = Cert.KernelIdeal.Gen.W7 m ρ c (Proc.devRef .tc Cert.KernelIdeal.main_v14) := by
  obtain ⟨g0, g1, g2, g3, g4, g5, g6, g7⟩ := hagree c
  rw [Cert.ReferenceIdeal.Read.val_main_v59_eq, g0, g1, g2, g3, g4, g5, g6, g7, Cert.KernelIdeal.HostSide.at_result, Cert.KernelIdeal.HostSide.at_dst_index6]
  unfold Cert.ReferenceIdeal.Read.val_main_v59
  -- one accumulation on both sides: compare the updates where they land
  show Ideal.hostScatterAdd (TakeScatter.addDims 100000 3200000 Cert.ReferenceIdeal.Gen.scatter_S100000_S3200000x1_S3200000_n_0_0_1_wf)
      (Cert.ReferenceIdeal.Read.val_main_v57 (F := Ideal)) (Cert.ReferenceIdeal.Read.val_main_v58 (F := Ideal) (m ((c.tc : Thread Cert.KernelIdeal.nD Cert.KernelIdeal.τ).loc Cert.KernelIdeal.main_arg4)))
      (Cert.ReferenceIdeal.Read.val_main_v56 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)))
    = Ideal.hostScatterAdd (TakeScatter.addDims 100000 3200000 Cert.ReferenceIdeal.Gen.scatter_S100000_S3200000x1_S3200000_n_0_0_1_wf)
      (Cert.ReferenceIdeal.Read.val_main_v57 (F := Ideal)) (Cert.ReferenceIdeal.Read.val_main_v58 (F := Ideal) (m ((c.tc : Thread Cert.KernelIdeal.nD Cert.KernelIdeal.τ).loc Cert.KernelIdeal.main_arg4)))
      (Cert.KernelIdeal.Gen.W6 m ρ c (Proc.devRef .tc Cert.KernelIdeal.main_v11))
  refine TakeScatter.scatterAdd_congr _ _ _ _ _ fun j i hji => ?_
  obtain ⟨e, rfl⟩ : ∃ e : Fin 3200000, j = ix1 e := ⟨j 0, eq_ix1 j⟩
  -- the edge lands: its destination index is inside the axis
  have hland := TakeScatter.lands_inside _ _ e i hji
  rw [Cert.ReferenceIdeal.Read.val_main_v58_apply] at hland
  have hidx : Cert.ReferenceIdeal.Read.idx_main_v58 (ix2 e (0 : Fin 1)) = ix1 e := funext fun a => Fin.ext (by match a with | ⟨0, _⟩ => rfl)
  rw [hidx] at hland
  have hd : 0 ≤ (BondEnergy.wrap (m ((c.tc : Thread Cert.KernelIdeal.nD Cert.KernelIdeal.τ).loc Cert.KernelIdeal.main_arg4) (ix1 e))).toInt ∧ (BondEnergy.wrap (m ((c.tc : Thread Cert.KernelIdeal.nD Cert.KernelIdeal.τ).loc Cert.KernelIdeal.main_arg4) (ix1 e))).toInt < 100000 := by
    rw [BondEnergy.wrap_of_nonneg _ hland.1]; exact hland
  -- its source index is a valid index by the precondition
  have hs : 0 ≤ (BondEnergy.wrap (m ((c.tc : Thread Cert.KernelIdeal.nD Cert.KernelIdeal.τ).loc Cert.KernelIdeal.main_arg3) (ix1 e))).toInt ∧ (BondEnergy.wrap (m ((c.tc : Thread Cert.KernelIdeal.nD Cert.KernelIdeal.τ).loc Cert.KernelIdeal.main_arg3) (ix1 e))).toInt < 100000 :=
    BondEnergy.wrap_range _ (Cert.Pre_finite_inputs.ReadBack.src_range _ _ _ _ _ _ _ _ (hpre c) e)
  rw [Cert.ReferenceIdeal.EdgeValue.update_eq]
  exact (Cert.KernelIdeal.HostSide.energy_apply m ρ c e hs hd).symm

end Cert.Proof.SameResult

end
-- ==== Proof.lean ====
/-
  The certificate of the pair-potential kernel: node features projected to two 4-vectors per node by one eight-column
  matrix product (first region), gathered to the edges by masked column takes, combined edge by edge into a pair
  energy under a smooth cutoff (second region), and accumulated at the destination nodes — against the reference, which
  projects with two four-column products, gathers rows, combines and accumulates the same way.

  The three frames: the two kernel programs' are their generated frames, the reference's its generated run with the
  result dropped.  The idealization rewrote nothing, so its claim is trivial.  For the equality of results, the
  kernel program is run with its result named (the launch of the frame, re-posted), the reference by its generated
  run, and the reference's result term is the kernel's last-boundary contents (SameResult): one accumulation of edge
  energies that agree at every edge whose destination index is inside the node axis, under the precondition that
  every source index is a valid index into that axis.
-/
import proofs.«419348_j47425028883061_3_alg».proof.Defs
import proofs.«419348_j47425028883061_3_alg».proof.Proof.Gen.Kernel
import proofs.«419348_j47425028883061_3_alg».proof.Proof.Gen.Kernel.Skeleton
import proofs.«419348_j47425028883061_3_alg».proof.Proof.Gen.Kernel.Launch
import proofs.«419348_j47425028883061_3_alg».proof.Proof.Gen.Kernel.Points
import proofs.«419348_j47425028883061_3_alg».proof.Proof.Gen.Kernel.Frame
import proofs.«419348_j47425028883061_3_alg».proof.Proof.Gen.KernelIdeal
import proofs.«419348_j47425028883061_3_alg».proof.Proof.Gen.KernelIdeal.Skeleton
import proofs.«419348_j47425028883061_3_alg».proof.Proof.Gen.KernelIdeal.Launch
import proofs.«419348_j47425028883061_3_alg».proof.Proof.Gen.KernelIdeal.Points
import proofs.«419348_j47425028883061_3_alg».proof.Proof.Gen.KernelIdeal.Frame
import proofs.«419348_j47425028883061_3_alg».proof.Proof.Gen.ReferenceIdeal
import proofs.«419348_j47425028883061_3_alg».proof.Proof.Gen.ReferenceIdeal.Run
import proofs.«419348_j47425028883061_3_alg».proof.Proof.Gen.ReferenceIdeal.Read
import proofs.«419348_j47425028883061_3_alg».proof.Proof.Gen.Pre_finite_inputs
import proofs.«419348_j47425028883061_3_alg».proof.Proof.KernelRun
import proofs.«419348_j47425028883061_3_alg».proof.Proof.SameResult
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the idealized reference: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with the same node energies. -/
theorem algebraic : Cert.algebraic_KernelIdeal_ReferenceIdeal := by
  intro m ρ m' ρ' hpre hagree
  refine ⟨fun c => Cert.KernelIdeal.Gen.W7 m ρ c (Proc.devRef .tc Cert.KernelIdeal.main_v14),
    Cert.KernelIdeal.Launched.run_named m ρ, ?_⟩
  refine (θ_run Cert.ReferenceIdeal.defs _ _).mono (fun _ h c => ⟨(h c).1.trans ?_, (h c).2⟩)
    (Cert.ReferenceIdeal.Value.run (F := Ideal) m' ρ')
  exact Cert.Proof.SameResult.result_eq m ρ m' hpre hagree c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
